-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1020 : Shape := ⟨2, ![16384, 1020]⟩
abbrev S16384x255 : Shape := ⟨2, ![16384, 255]⟩
abbrev S16384x16 : Shape := ⟨2, ![16384, 16]⟩
abbrev S16 : Shape := ⟨1, ![16]⟩
abbrev S1020 : Shape := ⟨1, ![1020]⟩
abbrev S_ : Shape := ⟨0, ![]⟩

class Facts : Prop where
  bcast_S_S16384x1020 : S_.BroadcastsInDim S16384x1020 (![] : Fin 0 → Fin S16384x1020.rank)
  reducesTo_S16384x1020_S_d0_1 : S16384x1020.ReducesTo [0, 1] S_
  h_S_ : 0 < S_.numel
  bcast_S_S16384x255 : S_.BroadcastsInDim S16384x255 (![] : Fin 0 → Fin S16384x255.rank)
  reducesTo_S16384x255_S_d0_1 : S16384x255.ReducesTo [0, 1] S_
  bcast_S_S16384x16 : S_.BroadcastsInDim S16384x16 (![] : Fin 0 → Fin S16384x16.rank)
  reducesTo_S16384x16_S_d0_1 : S16384x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S16384x1020 .f32) (main_arg1 : FVec F S16384x255 .f32) (main_arg2 : FVec F S16384x16 .f32) (main_arg3 : FVec F S16 .f32) (main_arg4 : IVec S1020 32) : IVec S_ 1 :=
  let main_v0 : FVec F S16384x1020 .f32 := Host.absf main_arg0
  let main_cst : FVec F S_ .f32 := constant S_ .f32 0x7F800000#32
  let main_v1 : FVec F S16384x1020 .f32 := broadcastInDim S16384x1020 ![] bcast_S_S16384x1020 main_cst
  let main_v2 : IVec S16384x1020 1 := cmpf .olt main_v0 main_v1
  let main_c : IVec S_ 1 := constantI S_ 1 1#1
  let main_v3 : IVec S_ 1 := (fun x v => Host.reduce IntOp.andi x v reducesTo_S16384x1020_S_d0_1 h_S_) main_v2 main_c
  let main_v4 : FVec F S16384x255 .f32 := Host.absf main_arg1
  let main_cst_0 : FVec F S_ .f32 := constant S_ .f32 0x7F800000#32
  let main_v5 : FVec F S16384x255 .f32 := broadcastInDim S16384x255 ![] bcast_S_S16384x255 main_cst_0
  let main_v6 : IVec S16384x255 1 := cmpf .olt main_v4 main_v5
  let main_c_1 : IVec S_ 1 := constantI S_ 1 1#1
  let main_v7 : IVec S_ 1 := (fun x v => Host.reduce IntOp.andi x v reducesTo_S16384x255_S_d0_1 h_S_) main_v6 main_c_1
  let main_v8 : IVec S_ 1 := andi main_v3 main_v7
  let main_v9 : FVec F S16384x16 .f32 := Host.absf main_arg2
  let main_cst_2 : FVec F S_ .f32 := constant S_ .f32 0x7F800000#32
  let main_v10 : FVec F S16384x16 .f32 := broadcastInDim S16384x16 ![] bcast_S_S16384x16 main_cst_2
  let main_v11 : IVec S16384x16 1 := cmpf .olt main_v9 main_v10
  let main_c_3 : IVec S_ 1 := constantI S_ 1 1#1
  let main_v12 : IVec S_ 1 := (fun x v => Host.reduce IntOp.andi x v reducesTo_S16384x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S16384x1020 : Shape := ⟨2, ![16384, 1020]⟩
abbrev S16384x255 : Shape := ⟨2, ![16384, 255]⟩
abbrev S16384x16 : Shape := ⟨2, ![16384, 16]⟩
abbrev S16 : Shape := ⟨1, ![16]⟩
abbrev S1020 : Shape := ⟨1, ![1020]⟩
abbrev S255 : Shape := ⟨1, ![255]⟩
abbrev S255x1 : Shape := ⟨2, ![255, 1]⟩
abbrev S1x1020 : Shape := ⟨2, ![1, 1020]⟩
abbrev S_ : Shape := ⟨0, ![]⟩
abbrev S255x1020 : Shape := ⟨2, ![255, 1020]⟩
abbrev S1020x1 : Shape := ⟨2, ![1020, 1]⟩
abbrev S1x16 : Shape := ⟨2, ![1, 16]⟩
abbrev S1020x16 : Shape := ⟨2, ![1020, 16]⟩
abbrev S1x1 : Shape := ⟨2, ![1, 1]⟩
abbrev S1024x1020 : Shape := ⟨2, ![1024, 1020]⟩
abbrev S1024x255 : Shape := ⟨2, ![1024, 255]⟩
abbrev S1024x16 : Shape := ⟨2, ![1024, 16]⟩
abbrev S1024 : Shape := ⟨1, ![1024]⟩
abbrev S1024x1 : Shape := ⟨2, ![1024, 1]⟩
abbrev S1 : Shape := ⟨1, ![1]⟩

abbrev nBuf : Space → Nat
  | .hbm => 40
  | .vmem => 13
  | .smem => 0
  | _ => 0

abbrev bufTy : (tb : Table) → Fin (tcTables nBuf tb) → BufTy
  | .hbm, ⟨0, _⟩ => ⟨S16384x1020, .f32⟩
  | .hbm, ⟨1, _⟩ => ⟨S16384x255, .f32⟩
  | .hbm, ⟨2, _⟩ => ⟨S16384x16, .f32⟩
  | .hbm, ⟨3, _⟩ => ⟨S16, .f32⟩
  | .hbm, ⟨4, _⟩ => ⟨S1020, .i32⟩
  | .hbm, ⟨5, _⟩ => ⟨S255, .i32⟩
  | .hbm, ⟨6, _⟩ => ⟨S255x1, .i32⟩
  | .hbm, ⟨7, _⟩ => ⟨S1020, .i32⟩
  | .hbm, ⟨8, _⟩ => ⟨S1x1020, .i32⟩
  | .hbm, ⟨9, _⟩ => ⟨S_, .i32⟩
  | .hbm, ⟨10, _⟩ => ⟨S_, .i32⟩
  | .hbm, ⟨11, _⟩ => ⟨S1x1020, .i32⟩
  | .hbm, ⟨12, _⟩ => ⟨S1x1020, .i32⟩
  | .hbm, ⟨13, _⟩ => ⟨S1x1020, .i32⟩
  | .hbm, ⟨14, _⟩ => ⟨S_, .i32⟩
  | .hbm, ⟨15, _⟩ => ⟨S1x1020, .i32⟩
  | .hbm, ⟨16, _⟩ => ⟨S1x1020, .i1⟩
  | .hbm, ⟨17, _⟩ => ⟨S1x1020, .i32⟩
  | .hbm, ⟨18, _⟩ => ⟨S1x1020, .i32⟩
  | .hbm, ⟨19, _⟩ => ⟨S_, .i32⟩
  | .hbm, ⟨20, _⟩ => ⟨S1x1020, .i32⟩
  | .hbm, ⟨21, _⟩ => ⟨S1x1020, .i1⟩
  | .hbm, ⟨22, _⟩ => ⟨S1x1020, .i1⟩
  | .hbm, ⟨23, _⟩ => ⟨S_, .i32⟩
  | .hbm, ⟨24, _⟩ => ⟨S1x1020, .i32⟩
  | .hbm, ⟨25, _⟩ => ⟨S1x1020, .i32⟩
  | .hbm, ⟨26, _⟩ => ⟨S1x1020, .i32⟩
  | .hbm, ⟨27, _⟩ => ⟨S255x1020, .i32⟩
  | .hbm, ⟨28, _⟩ => ⟨S255x1020, .i32⟩
  | .hbm, ⟨29, _⟩ => ⟨S255x1020, .i1⟩
  | .hbm, ⟨30, _⟩ => ⟨S255x1020, .f32⟩
  | .hbm, ⟨31, _⟩ => ⟨S1020x1, .i32⟩
  | .hbm, ⟨32, _⟩ => ⟨S1x16, .i32⟩
  | .hbm, ⟨33, _⟩ => ⟨S1020x16, .i32⟩
  | .hbm, ⟨34, _⟩ => ⟨S1020x16, .i32⟩
  | .hbm, ⟨35, _⟩ => ⟨S1020x16, .i1⟩
  | .hbm, ⟨36, _⟩ => ⟨S1020x16, .f32⟩
  | .hbm, ⟨37, _⟩ => ⟨S1x16, .f32⟩
  | .hbm, ⟨38, _⟩ => ⟨S1x1, .f32⟩
  | .hbm, ⟨39, _⟩ => ⟨S_, .f32⟩
  | .local _ .vmem, ⟨0, _⟩ => ⟨S1024x1020, .f32⟩
  | .local _ .vmem, ⟨1, _⟩ => ⟨S1024x1020, .f32⟩
  | .local _ .vmem, ⟨2, _⟩ => ⟨S1024x255, .f32⟩
  | .local _ .vmem, ⟨3, _⟩ => ⟨S1024x255, .f32⟩
  | .local _ .vmem, ⟨4, _⟩ => ⟨S1024x16, .f32⟩
  | .local _ .vmem, ⟨5, _⟩ => ⟨S1024x16, .f32⟩
  | .local _ .vmem, ⟨6, _⟩ => ⟨S255x1020, .f32⟩
  | .local _ .vmem, ⟨7, _⟩ => ⟨S1020x16, .f32⟩
  | .local _ .vmem, ⟨8, _⟩ => ⟨S1x16, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | _, _ => ⟨S16384x1020, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v60 : BitVec 1 := Scalar.cmpi .eq arg0 c15_i32
  let v61 : BitVec 32 := Scalar.extui v60
  let c0_i32_35 : BitVec 32 := 0#32
  let v62 : BitVec 1 := Scalar.cmpi .ne v61 c0_i32_35
  v62

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1020 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x255 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S255x1020 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1020x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  bcast_S255_S255x1_0 : S255.BroadcastsInDim S255x1 (![0] : Fin 1 → Fin S255x1.rank)
  bcast_S1020_S1x1020_1 : S1020.BroadcastsInDim S1x1020 (![1] : Fin 1 → Fin S1x1020.rank)
  bcast_S_S1x1020 : S_.BroadcastsInDim S1x1020 (![] : Fin 0 → Fin S1x1020.rank)
  bcast_S1x1020_S255x1020_0_1 : S1x1020.BroadcastsInDim S255x1020 (![0, 1] : Fin 2 → Fin S255x1020.rank)
  bcast_S255x1_S255x1020_0_1 : S255x1.BroadcastsInDim S255x1020 (![0, 1] : Fin 2 → Fin S255x1020.rank)
  bcast_S1020_S1020x1_0 : S1020.BroadcastsInDim S1020x1 (![0] : Fin 1 → Fin S1020x1.rank)
  bcast_S1020x1_S1020x16_0_1 : S1020x1.BroadcastsInDim S1020x16 (![0, 1] : Fin 2 → Fin S1020x16.rank)
  bcast_S1x16_S1020x16_0_1 : S1x16.BroadcastsInDim S1020x16 (![0, 1] : Fin 2 → Fin S1020x16.rank)
  shapeCasts_S16_S1x16 : S16.ShapeCasts S1x16
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x255_S1024x255_0_0 : ∀ a, (![0, 0] : Fin 2 → Nat) a + S1024x255.size a ≤ S1024x255.size a
  h_S1024x255 : 0 < S1024x255.numel
  inb_S1024x1020_S1024x1020_0_0 : ∀ a, (![0, 0] : Fin 2 → Nat) a + S1024x1020.size a ≤ S1024x1020.size a
  h_S1024x1020 : 0 < S1024x1020.numel
  inb_S255x1020_S255x1020_0_0 : ∀ a, (![0, 0] : Fin 2 → Nat) a + S255x1020.size a ≤ S255x1020.size a
  h_S255x1020 : 0 < S255x1020.numel
  shapeCasts_S255x1020_S255x1020 : S255x1020.ShapeCasts S255x1020
  inb_S1020x16_S1020x16_0_0 : ∀ a, (![0, 0] : Fin 2 → Nat) a + S1020x16.size a ≤ S1020x16.size a
  h_S1020x16 : 0 < S1020x16.numel
  shapeCasts_S1020x16_S1020x16 : S1020x16.ShapeCasts S1020x16
  inb_S1024x16_S1024x16_0_0 : ∀ a, (![0, 0] : Fin 2 → Nat) a + S1024x16.size a ≤ S1024x16.size a
  h_S1024x16 : 0 < S1024x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  bitsLt_bf16_f32 : FTy.bits .bf16 < FTy.bits .f32
  broadcasts_S1x16_S1024x16 : S1x16.Broadcasts S1024x16
  reduces_S1024x16_S1024 : S1024x16.Reduces [1] S1024
  shapeCasts_S1024_S1024x1 : S1024.ShapeCasts S1024x1
  broadcasts_S1024x1_S1024x16 : S1024x1.Broadcasts S1024x16
  reduces_S1024x1_S1 : S1024x1.Reduces [0] S1
  shapeCasts_S1_S1x1 : S1.ShapeCasts S1x1
  shapeCasts_S1x1_S_ : S1x1.ShapeCasts S_
  dot_S1024x255_S255x1020_S1024x1020_1_0_0_1_n_n_wf : DotDims.WF S1024x255 S255x1020 S1024x1020 [1] [0] [0] [1] [] []
  dot_S1024x1020_S1020x16_S1024x16_1_0_0_1_n_n_wf : DotDims.WF S1024x1020 S1020x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1020.size a ≤ S16384x1020.size a
  hwx0_0 : ∀ i : grid0.Coords, EltTy.bits .f32 = 32 ∨ (Rect.block (s := S16384x1020) S1024x1020.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x255.size a ≤ S16384x255.size a
  hwx0_1 : ∀ i : grid0.Coords, EltTy.bits .f32 = 32 ∨ (Rect.block (s := S16384x255) S1024x255.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S16384x16.size a
  hwx0_2 : ∀ i : grid0.Coords, EltTy.bits .f32 = 32 ∨ (Rect.block (s := S16384x16) S1024x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S255x1020.size a ≤ S255x1020.size a
  hwx0_3 : ∀ i : grid0.Coords, EltTy.bits .f32 = 32 ∨ (Rect.block (s := S255x1020) S255x1020.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1020x16.size a ≤ S1020x16.size a
  hwx0_4 : ∀ i : grid0.Coords, EltTy.bits .f32 = 32 ∨ (Rect.block (s := S1020x16) S1020x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

def dot_S1024x255_S255x1020_S1024x1020_1_0_0_1_n_n : DotDims S1024x255 S255x1020 S1024x1020 where
  lhsContracting := [1]
  rhsContracting := [0]
  lhsNonContracting := [0]
  rhsNonContracting := [1]
  lhsBatch := []
  rhsBatch := []
  wf := dot_S1024x255_S255x1020_S1024x1020_1_0_0_1_n_n_wf
def dot_S1024x1020_S1020x16_S1024x16_1_0_0_1_n_n : DotDims S1024x1020 S1020x16 S1024x16 where
  lhsContracting := [1]
  rhsContracting := [0]
  lhsNonContracting := [0]
  rhsNonContracting := [1]
  lhsBatch := []
  rhsBatch := []
  wf := dot_S1024x1020_S1020x16_S1024x16_1_0_0_1_n_n_wf

abbrev win0_0 : Pipeline.Window sig grid0 :=
  Pipeline.Window.ofSpec (Memref.whole main_arg0) S1024x1020.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x255.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S255x1020.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1020x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S16384x1020 : Shape := ⟨2, ![16384, 1020]⟩
abbrev S16384x255 : Shape := ⟨2, ![16384, 255]⟩
abbrev S16384x16 : Shape := ⟨2, ![16384, 16]⟩
abbrev S16 : Shape := ⟨1, ![16]⟩
abbrev S1020 : Shape := ⟨1, ![1020]⟩
abbrev S16384x255x4 : Shape := ⟨3, ![16384, 255, 4]⟩
abbrev S1020x1 : Shape := ⟨2, ![1020, 1]⟩
abbrev S1x16 : Shape := ⟨2, ![1, 16]⟩
abbrev S1020x16 : Shape := ⟨2, ![1020, 16]⟩
abbrev S_ : Shape := ⟨0, ![]⟩
abbrev S16384 : Shape := ⟨1, ![16384]⟩
abbrev S16384x1 : Shape := ⟨2, ![16384, 1]⟩

abbrev nBuf : Space → Nat
  | .hbm => 69
  | .vmem => 0
  | .smem => 0
  | _ => 0

abbrev bufTy : (tb : Table) → Fin (tcTables nBuf tb) → BufTy
  | .hbm, ⟨0, _⟩ => ⟨S16384x1020, .f32⟩
  | .hbm, ⟨1, _⟩ => ⟨S16384x255, .f32⟩
  | .hbm, ⟨2, _⟩ => ⟨S16384x16, .f32⟩
  | .hbm, ⟨3, _⟩ => ⟨S16, .f32⟩
  | .hbm, ⟨4, _⟩ => ⟨S1020, .i32⟩
  | .hbm, ⟨5, _⟩ => ⟨S16384x255x4, .f32⟩
  | .hbm, ⟨6, _⟩ => ⟨S16384x1020, .f32⟩
  | .hbm, ⟨7, _⟩ => ⟨S16384x1020, .f32⟩
  | .hbm, ⟨8, _⟩ => ⟨S1020x1, .i32⟩
  | .hbm, ⟨9, _⟩ => ⟨S1x16, .i32⟩
  | .hbm, ⟨10, _⟩ => ⟨S1020x16, .i32⟩
  | .hbm, ⟨11, _⟩ => ⟨S1020x16, .i32⟩
  | .hbm, ⟨12, _⟩ => ⟨S1020x16, .i1⟩
  | .hbm, ⟨13, _⟩ => ⟨S1020x16, .f32⟩
  | .hbm, ⟨14, _⟩ => ⟨S16384x16, .f32⟩
  | .hbm, ⟨15, _⟩ => ⟨S1x16, .f32⟩
  | .hbm, ⟨16, _⟩ => ⟨S_, .f32⟩
  | .hbm, ⟨17, _⟩ => ⟨S1x16, .f32⟩
  | .hbm, ⟨18, _⟩ => ⟨S1x16, .f32⟩
  | .hbm, ⟨19, _⟩ => ⟨S16384x16, .f32⟩
  | .hbm, ⟨20, _⟩ => ⟨S16384x16, .f32⟩
  | .hbm, ⟨21, _⟩ => ⟨S_, .i32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x16, .f32⟩
  | .hbm, ⟨29, _⟩ => ⟨S16384x16, .f32⟩
  | .hbm, ⟨30, _⟩ => ⟨S16384x16, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S16384, .f32⟩
  | .hbm, ⟨36, _⟩ => ⟨S16384, .f32⟩
  | .hbm, ⟨37, _⟩ => ⟨S16384, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S16384x16, .f32⟩
  | .hbm, ⟨49, _⟩ => ⟨S_, .f32⟩
  | .hbm, ⟨50, _⟩ => ⟨S16384, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S16384, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S16384x1020, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_call1_cst : Ref sig .tc := ⟨.hbm, 22, rfl⟩
abbrev main_call1_v0 : Ref sig .tc := ⟨.hbm, 23, rfl⟩
abbrev main_call1_v1 : Ref sig .tc := ⟨.hbm, 24, rfl⟩
abbrev main_call1_cst_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_cst_1 : Ref sig .tc := ⟨.hbm, 32, rfl⟩
abbrev main_call1_v8 : Ref sig .tc := ⟨.hbm, 33, rfl⟩
abbrev main_call1_cst_2 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_cst_3 : Ref sig .tc := ⟨.hbm, 38, rfl⟩
abbrev main_call1_v12 : Ref sig .tc := ⟨.hbm, 39, rfl⟩
abbrev main_call1_cst_4 : Ref sig .tc := ⟨.hbm, 40, rfl⟩
abbrev main_call1_call0_v0 : Ref sig .tc := ⟨.hbm, 41, rfl⟩
abbrev main_call1_call0_v1 : Ref sig .tc := ⟨.hbm, 42, rfl⟩
abbrev main_v10 : Ref sig .tc := ⟨.hbm, 43, rfl⟩
abbrev main_cst_0 : Ref sig .tc := ⟨.hbm, 44, rfl⟩
abbrev main_v11 : Ref sig .tc := ⟨.hbm, 45, rfl⟩
abbrev main_cst_1 : Ref sig .tc := ⟨.hbm, 46, rfl⟩
abbrev main_v12 : Ref sig .tc := ⟨.hbm, 47, rfl⟩
abbrev main_v13 : Ref sig .tc := ⟨.hbm, 48, rfl⟩
abbrev main_cst_2 : Ref sig .tc := ⟨.hbm, 49, rfl⟩
abbrev main_v14 : Ref sig .tc := ⟨.hbm, 50, rfl⟩
abbrev main_cst_3 : Ref sig .tc := ⟨.hbm, 51, rfl⟩
abbrev main_v15 : Ref sig .tc := ⟨.hbm, 52, rfl⟩
abbrev main_cst_4 : Ref sig .tc := ⟨.hbm, 53, rfl⟩
abbrev main_v16 : Ref sig .tc := ⟨.hbm, 54, rfl⟩
abbrev main_cst_5 : Ref sig .tc := ⟨.hbm, 55, rfl⟩
abbrev main_v17 : Ref sig .tc := ⟨.hbm, 56, rfl⟩
abbrev main_cst_6 : Ref sig .tc := ⟨.hbm, 57, rfl⟩
abbrev main_v18 : Ref sig .tc := ⟨.hbm, 58, rfl⟩
abbrev main_cst_7 : Ref sig .tc := ⟨.hbm, 59, rfl⟩
abbrev main_v19 : Ref sig .tc := ⟨.hbm, 60, rfl⟩
abbrev main_cst_8 : Ref sig .tc := ⟨.hbm, 61, rfl⟩
abbrev main_v20 : Ref sig .tc := ⟨.hbm, 62, rfl⟩
abbrev main_cst_9 : Ref sig .tc := ⟨.hbm, 63, rfl⟩
abbrev main_v21 : Ref sig .tc := ⟨.hbm, 64, rfl⟩
abbrev main_v22 : Ref sig .tc := ⟨.hbm, 65, rfl⟩
abbrev main_cst_10 : Ref sig .tc := ⟨.hbm, 66, rfl⟩
abbrev main_v23 : Ref sig .tc := ⟨.hbm, 67, rfl⟩
abbrev main_v24 : Ref sig .tc := ⟨.hbm, 68, rfl⟩

abbrev nD : Nat := 1
abbrev τ : Topo := Topo.v7x

variable {F : FTy → Type} [FloatOps F]

class Facts₀ : Prop where
  bcast_S16384x255_S16384x255x4_0_1 : S16384x255.BroadcastsInDim S16384x255x4 (![0, 1] : Fin 2 → Fin S16384x255x4.rank)
  shapeCasts_S16384x255x4_S16384x1020 : S16384x255x4.ShapeCasts S16384x1020
  bcast_S1020_S1020x1_0 : S1020.BroadcastsInDim S1020x1 (![0] : Fin 1 → Fin S1020x1.rank)
  bcast_S1020x1_S1020x16_0_1 : S1020x1.BroadcastsInDim S1020x16 (![0, 1] : Fin 2 → Fin S1020x16.rank)
  bcast_S1x16_S1020x16_0_1 : S1x16.BroadcastsInDim S1020x16 (![0, 1] : Fin 2 → Fin S1020x16.rank)
  bcast_S16_S1x16_1 : S16.BroadcastsInDim S1x16 (![1] : Fin 1 → Fin S1x16.rank)
  bcast_S_S1x16 : S_.BroadcastsInDim S1x16 (![] : Fin 0 → Fin S1x16.rank)
  bcast_S1x16_S16384x16_0_1 : S1x16.BroadcastsInDim S16384x16 (![0, 1] : Fin 2 → Fin S16384x16.rank)
  reducesTo_S16384x16_S16384_d1 : S16384x16.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x16_0_1 : S16384x1.BroadcastsInDim S16384x16 (![0, 1] : Fin 2 → Fin S16384x16.rank)
  bcast_S_S16384 : S_.BroadcastsInDim S16384 (![] : Fin 0 → Fin S16384.rank)
  reducesTo_S16384_S_d0 : S16384.ReducesTo [0] S_
  dot_S16384x1020_S1020x16_S16384x16_1_0_0_1_n_n_wf : DotDims.WF S16384x1020 S1020x16 S16384x16 [1] [0] [0] [1] [] []

variable [Facts₀]

def dot_S16384x1020_S1020x16_S16384x16_1_0_0_1_n_n : DotDims S16384x1020 S1020x16 S16384x16 where
  lhsContracting := [1]
  rhsContracting := [0]
  lhsNonContracting := [0]
  rhsNonContracting := [1]
  lhsBatch := []
  rhsBatch := []
  wf := dot_S16384x1020_S1020x16_S16384x16_1_0_0_1_n_n_wf

class Facts : Prop extends Facts₀ where

variable [Facts]
-- ==== Proof.LinkLoss.lean ====
/-
  The loss the two programs compute, written once, row by row.

  A batch row carries 1020 tunnel ratios, 255 demands (destination `d` owns the four tunnels `4d … 4d+3`), the
  current utilisation of 16 links; shared by all rows are the 16 link capacities and a table `oh t l` saying how
  much of tunnel `t` runs over link `l`.  The traffic of tunnel `t` is its ratio times the demand of its
  destination; the traffic of a link is the sum over the tunnels of traffic times table entry; a link's utilisation is
  that traffic over its capacity plus a small offset.  Per row three numbers are taken of the 16 utilisations: their
  unbiased variance (mean = sum / 16, squared deviations summed, over 15), their product sum with the current
  utilisations, and their maximum.  Each is averaged over the 16384 rows of the batch and the three averages are
  mixed with weights 0.3, 0.5, 0.2.

  Everything is over the extended reals with the quotient `Ideal.div`; the float literals stay as their words, the
  same words in both programs.  Two facts about sums are proved here because both programs' arrangements lean on them:
  a row of demands times the 0/1 matrix "tunnel t belongs to destination d" is the demand of t's destination, and a sum
  over the 16384 rows is the running sum of sixteen consecutive stretches of 1024 rows.
-/
import Idealize.ShloMosaic.PureOps.Ideal
import Idealize.ShloMosaic.PureOps.Ideal.Laws
import Idealize.ShloMosaic.Lib.ValueIdx

noncomputable section

open scoped BigOperators

namespace Cert.LinkLoss

open Idealize.ShloMosaic Idealize.ShloMosaic.ValueIdx

/-- The destination that owns tunnel `t`: four consecutive tunnels per destination. -/
def dst (t : Fin 1020) : Fin 255 := ⟨t.val / 4, by have := t.isLt; omega⟩

/-- The offset added to every capacity (the word of the float nearest 1e-8). -/
abbrev eps : EReal := Ideal.ofBits .f32 0x322BCC77#32

/-- Utilisation of link `l` by one row, with the repeat of the demands written as a product with a matrix `E d t`. -/
def rowUtilE (pr : Fin 1020 → EReal) (dm : Fin 255 → EReal) (E : Fin 255 → Fin 1020 → EReal)
    (oh : Fin 1020 → Fin 16 → EReal) (cap : Fin 16 → EReal) (l : Fin 16) : EReal :=
  Ideal.div (∑ t : Fin 1020, (pr t * ∑ d : Fin 255, dm d * E d t) * oh t l) (cap l + eps)

/-- Utilisation of link `l` by one row: tunnel traffic is ratio times the owning destination's demand. -/
def rowUtil (pr : Fin 1020 → EReal) (dm : Fin 255 → EReal) (oh : Fin 1020 → Fin 16 → EReal) (cap : Fin 16 → EReal)
    (l : Fin 16) : EReal :=
  Ideal.div (∑ t : Fin 1020, (pr t * dm (dst t)) * oh t l) (cap l + eps)

/-- Mean of a row's 16 utilisations. -/
def rowMean (u : Fin 16 → EReal) : EReal := Ideal.div (∑ l : Fin 16, u l) (Ideal.ofBits .f32 0x41800000#32)

/-- Unbiased variance of a row's 16 utilisations: squared deviations from the mean, summed, over 15. -/
def rowVar (u : Fin 16 → EReal) : EReal :=
  Ideal.div (∑ l : Fin 16, (u l - rowMean u) * (u l - rowMean u)) (Ideal.ofBits .f32 0x41700000#32)

/-- A row's utilisations weighted by the current ones. -/
def rowCong (u c : Fin 16 → EReal) : EReal := ∑ l : Fin 16, u l * c l

/-- A row's largest utilisation: the fold of `max` from minus infinity's word. -/
def rowMax (u : Fin 16 → EReal) : EReal :=
  (Finset.univ : Finset (Fin 16)).fold max (Ideal.ofBits .f32 0xFF800000#32) u

/-- The three batch sums averaged over 16384 rows and mixed with weights 0.3, 0.5, 0.2. -/
def loss (sv sc sm : EReal) : EReal :=
  (Ideal.ofBits .f32 0x3E99999A#32 * Ideal.div sv (Ideal.ofBits .f32 0x46800000#32)
      + Ideal.ofBits .f32 0x3F000000#32 * Ideal.div sc (Ideal.ofBits .f32 0x46800000#32))
    + Ideal.ofBits .f32 0x3E4CCCCD#32 * Ideal.div sm (Ideal.ofBits .f32 0x46800000#32)

/-- Row `b`'s utilisations read off the whole arrays. -/
def utilOf (pr : (⟨2, ![16384, 1020]⟩ : Shape).Idx → EReal) (dm : (⟨2, ![16384, 255]⟩ : Shape).Idx → EReal)
    (oh : (⟨2, ![1020, 16]⟩ : Shape).Idx → EReal) (cap : (⟨1, ![16]⟩ : Shape).Idx → EReal) (b : Fin 16384) : Fin 16 → EReal :=
  rowUtil (fun t => pr (ix2 b t)) (fun d => dm (ix2 b d)) (fun t l => oh (ix2 t l)) (fun l => cap (ix1 l))

/-- The loss of the whole batch. -/
def total (pr : (⟨2, ![16384, 1020]⟩ : Shape).Idx → EReal) (dm : (⟨2, ![16384, 255]⟩ : Shape).Idx → EReal)
    (clu : (⟨2, ![16384, 16]⟩ : Shape).Idx → EReal) (cap : (⟨1, ![16]⟩ : Shape).Idx → EReal)
    (oh : (⟨2, ![1020, 16]⟩ : Shape).Idx → EReal) : EReal :=
  loss (∑ b : Fin 16384, rowVar (utilOf pr dm oh cap b))
    (∑ b : Fin 16384, rowCong (utilOf pr dm oh cap b) (fun l => clu (ix2 b l)))
    (∑ b : Fin 16384, rowMax (utilOf pr dm oh cap b))

/-- A row of demands against the 0/1 ownership matrix picks the owning destination's demand: every other term is a
    product with zero, which is zero on the extended reals whatever the demand. -/
theorem sum_owner (dm : Fin 255 → EReal) (t : Fin 1020) :
    (∑ d : Fin 255, dm d * (if t.val / 4 = d.val then (1 : EReal) else 0)) = dm (dst t) := by
  rw [Finset.sum_eq_single (dst t)]
  · rw [if_pos (show t.val / 4 = (dst t).val from rfl), mul_one]
  · intro d _ hd
    rw [if_neg (fun h => hd (Fin.ext (by rw [← h]; rfl))), mul_zero]
  · intro h; exact absurd (Finset.mem_univ _) h

/-- With the ownership matrix for `E`, the matrix form of a row's utilisation is the direct one. -/
theorem rowUtilE_owner (pr : Fin 1020 → EReal) (dm : Fin 255 → EReal) (E : Fin 255 → Fin 1020 → EReal)
    (hE : ∀ d t, E d t = if t.val / 4 = d.val then (1 : EReal) else 0)
    (oh : Fin 1020 → Fin 16 → EReal) (cap : Fin 16 → EReal) (l : Fin 16) :
    rowUtilE pr dm E oh cap l = rowUtil pr dm oh cap l := by
  unfold rowUtilE rowUtil
  congr 1
  refine Finset.sum_congr rfl fun t _ => ?_
  have : (∑ d : Fin 255, dm d * E d t) = dm (dst t) := by
    rw [← sum_owner dm t]
    exact Finset.sum_congr rfl fun d _ => by rw [hE d t]
  rw [this]

/-- A function on the 16384 rows, continued by zero past the last row, so that stretches of rows are ranges. -/
def ext (f : Fin 16384 → EReal) (k : ℕ) : EReal := if h : k < 16384 then f ⟨k, h⟩ else 0

/-- The sum over all rows is the sum of the continued function over the first 16384 naturals. -/
theorem sum_rows_eq_range (f : Fin 16384 → EReal) : (∑ b : Fin 16384, f b) = ∑ k ∈ Finset.range 16384, ext f k := by
  rw [← Fin.sum_univ_eq_sum_range (ext f) 16384]
  exact Finset.sum_congr rfl fun b _ => by unfold ext; rw [dif_pos b.isLt]

/-- The rows before stretch `n + 1` are the rows before stretch `n` and the 1024 rows of stretch `n`. -/
theorem sum_stretch (f : Fin 16384 → EReal) (n : ℕ) (hn : n < 16) :
    (∑ k ∈ Finset.range (1024 * (n + 1)), ext f k)
      = (∑ k ∈ Finset.range (1024 * n), ext f k) + ∑ r : Fin 1024, f ⟨1024 * n + r.val, by have := r.isLt; omega⟩ := by
  rw [show 1024 * (n + 1) = 1024 * n + 1024 from by ring, Finset.sum_range_add]
  congr 1
  rw [← Fin.sum_univ_eq_sum_range (fun x => ext f (1024 * n + x)) 1024]
  exact Finset.sum_congr rfl fun r _ => by
    unfold ext; rw [dif_pos (show 1024 * n + r.val < 16384 from by have := r.isLt; omega)]

/-! ## The tunnel-to-link table -/

theorem bcast_idx : (⟨1, ![1020]⟩ : Shape).BroadcastsInDim ⟨2, ![1020, 1]⟩ (![0] : Fin 1 → Fin 2) := by decide
theorem bcast_col : (⟨2, ![1020, 1]⟩ : Shape).BroadcastsInDim ⟨2, ![1020, 16]⟩ (![0, 1] : Fin 2 → Fin 2) := by decide
theorem bcast_row : (⟨2, ![1, 16]⟩ : Shape).BroadcastsInDim ⟨2, ![1020, 16]⟩ (![0, 1] : Fin 2 → Fin 2) := by decide

/-- The table both programs build from the integer array of link numbers: entry `(t, l)` is the float of the bit
    "tunnel `t`'s link number is `l`" (the link numbers along the rows against `0 … 15` along the columns). -/
def oneHot (idx : IVec ⟨1, ![1020]⟩ 32) : FVec Ideal ⟨2, ![1020, 16]⟩ .f32 :=
  uitofp .f32 (cmpi .eq
    (broadcastInDim ⟨2, ![1020, 16]⟩ ![0, 1] bcast_col (broadcastInDim ⟨2, ![1020, 1]⟩ ![0] bcast_idx idx))
    (broadcastInDim ⟨2, ![1020, 16]⟩ ![0, 1] bcast_row (iotaInDim ⟨2, ![1, 16]⟩ 32 1)))

end Cert.LinkLoss

end
-- ==== Proof.Pieces.lean ====
/-
  What each control case of the kernel body leaves in its three carried accumulators and, at the last grid point, in
  its output, as terms over the body's arithmetic: the accumulator of the variances takes its old contents plus the
  block's summed row variances, the accumulator of the weighted sums and the accumulator of the maxima likewise; at
  the first point the old contents are the zeros the body has just stored; at the last point the output is the mix of
  the three accumulators as they stand after that point's additions.
-/
import proofs.«151836_j5549097747152_1_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]
variable (c : Dev nD) (i : grid0.Coords) (arg1 : Memref sig .tc .vmem S1024x1020 .f32) (harg1 : arg1.IsWhole) (arg2 : Memref sig .tc .vmem S1024x255 .f32) (harg2 : arg2.IsWhole) (arg3 : Memref sig .tc .vmem S1024x16 .f32) (harg3 : arg3.IsWhole) (arg4 : Memref sig .tc .vmem S255x1020 .f32) (harg4 : arg4.IsWhole) (arg5 : Memref sig .tc .vmem S1020x16 .f32) (harg5 : arg5.IsWhole) (arg6 : Memref sig .tc .vmem S1x16 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole)
  (x0 : Vec F S1024x1020 .f32) (x1 : Vec F S1024x255 .f32) (x2 : Vec F S1024x16 .f32) (x3 : Vec F S255x1020 .f32)
  (x4 : Vec F S1020x16 .f32) (x5 : Vec F S1x16 .f32) (xs0 xs1 xs2 : Vec F S1x1 .f32)

/-! Every buffer here is one by one, and every load and store of the body goes through the whole rectangle of its
    buffer at zero offsets. A store through that rectangle, made last, leaves its payload whatever was stored before;
    a load through it reads the whole contents; and a load of a buffer after a store in the same case reads that
    store's payload. So each lemma is the case's last store into the buffer with its loads read: the input blocks
    for the loads of the inputs, what the point before left (or, at the first point, the zero just stored) for the
    load of the accumulator, and at the last point this point's own updated accumulators for the three loads the
    output's mix is made of. -/

/-- The zero offsets of a rank-two block are the constant zero function. -/
private theorem hz : (![0, 0] : Fin 2 → Nat) = fun _ => 0 := funext fun a => by fin_cases a <;> rfl

/-- First point, variance accumulator: the stored zero plus the block's summed row variances. -/
theorem sout_A_0 (hc0 : cond0_0 i) (hc1 : ¬cond0_1 i) :
    sout0_A_0 c i arg1 harg1 arg2 harg2 arg3 harg3 arg4 harg4 arg5 harg5 arg6 harg6 arg7 harg7 arg8 harg8 arg9 harg9 arg10 harg10 hc0 hc1 x0 x1 x2 x3 x4 x5
      = k0_pay1 (k0_pay9 x1 x0 x3 x4 x5) (k0_pay5 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1x1) hz]
  simp only [View.readAt_eq_ld, harg1.read_unread, harg2.read_unread, harg4.read_unread,
    harg5.read_unread, harg6.read_unread, View.readCov_unit_zero (S := S1x1) _ hz, View.ld_unit_zero (S := S1024x1020) hz,
    View.ld_unit_zero (S := S1024x255) hz, View.ld_unit_zero (S := S255x1020) hz, View.ld_unit_zero (S := S1020x16) hz, View.ld_unit_zero (S := S1x16) hz]

/-- First point, weighted-sum accumulator. -/
theorem sout_A_1 (hc0 : cond0_0 i) (hc1 : ¬cond0_1 i) :
    sout0_A_1 c i arg1 harg1 arg2 harg2 arg3 harg3 arg4 harg4 arg5 harg5 arg6 harg6 arg7 harg7 arg8 harg8 arg9 harg9 arg10 harg10 hc0 hc1 x0 x1 x2 x3 x4 x5
      = k0_pay2 (k0_pay10 x1 x0 x3 x4 x2 x5) (k0_pay6 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1x1) hz]
  simp only [View.readAt_eq_ld, harg1.read_unread, harg2.read_unread, harg3.read_unread,
    harg4.read_unread, harg5.read_unread, harg6.read_unread, View.readCov_unit_zero (S := S1x1) _ hz,
    View.ld_unit_zero (S := S1024x1020) hz, View.ld_unit_zero (S := S1024x255) hz, View.ld_unit_zero (S := S255x1020) hz, View.ld_unit_zero (S := S1020x16) hz,
    View.ld_unit_zero (S := S1x16) hz, View.ld_unit_zero (S := S1024x16) hz]

/-- First point, maxima accumulator. -/
theorem sout_A_2 (hc0 : cond0_0 i) (hc1 : ¬cond0_1 i) :
    sout0_A_2 c i arg1 harg1 arg2 harg2 arg3 harg3 arg4 harg4 arg5 harg5 arg6 harg6 arg7 harg7 arg8 harg8 arg9 harg9 arg10 harg10 hc0 hc1 x0 x1 x2 x3 x4 x5
      = k0_pay3 (k0_pay8 x1 x0 x3 x4 x5) (k0_pay7 (F := F)) := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1x1) hz]
  simp only [View.readAt_eq_ld, harg1.read_unread, harg2.read_unread, harg4.read_unread,
    harg5.read_unread, harg6.read_unread, View.readCov_unit_zero (S := S1x1) _ hz, View.ld_unit_zero (S := S1024x1020) hz,
    View.ld_unit_zero (S := S1024x255) hz, View.ld_unit_zero (S := S255x1020) hz, View.ld_unit_zero (S := S1020x16) hz, View.ld_unit_zero (S := S1x16) hz]

/-- A middle point, variance accumulator: what the point before left plus the block's summed row variances. -/
theorem sout_B_0 (hc0 : ¬cond0_0 i) (hc1 : ¬cond0_1 i) :
    sout0_B_0 c i arg1 harg1 arg2 harg2 arg3 harg3 arg4 harg4 arg5 harg5 arg6 harg6 arg7 harg7 arg8 harg8 arg9 harg9 arg10 harg10 hc0 hc1 x0 x1 x2 x3 x4 x5 xs0 xs1 xs2
      = k0_pay1 (k0_pay9 x1 x0 x3 x4 x5) xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 x5 xs0 xs1 xs2)]
  unfold kernelRun0_B
  dsimp only
  sl_unfold_words
  rw [View.canon_unit_zero hz]
  simp only [View.readAt_eq_ld, harg1.read_unread, harg2.read_unread, harg4.read_unread,
    harg5.read_unread, harg6.read_unread, harg8.read_unread, View.ld_unit_zero (S := S1x1) hz,
    View.ld_unit_zero (S := S1024x1020) hz, View.ld_unit_zero (S := S1024x255) hz, View.ld_unit_zero (S := S255x1020) hz, View.ld_unit_zero (S := S1020x16) hz,
    View.ld_unit_zero (S := S1x16) hz]

theorem sout_B_1 (hc0 : ¬cond0_0 i) (hc1 : ¬cond0_1 i) :
    sout0_B_1 c i arg1 harg1 arg2 harg2 arg3 harg3 arg4 harg4 arg5 harg5 arg6 harg6 arg7 harg7 arg8 harg8 arg9 harg9 arg10 harg10 hc0 hc1 x0 x1 x2 x3 x4 x5 xs0 xs1 xs2
      = k0_pay2 (k0_pay10 x1 x0 x3 x4 x2 x5) xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 x3 x4 x5 xs0 xs1 xs2)]
  unfold kernelRun0_B
  dsimp only
  sl_unfold_words
  rw [View.canon_unit_zero hz]
  simp only [View.readAt_eq_ld, harg1.read_unread, harg2.read_unread, harg3.read_unread,
    harg4.read_unread, harg5.read_unread, harg6.read_unread, harg9.read_unread,
    View.ld_unit_zero (S := S1x1) hz, View.ld_unit_zero (S := S1024x1020) hz, View.ld_unit_zero (S := S1024x255) hz, View.ld_unit_zero (S := S255x1020) hz,
    View.ld_unit_zero (S := S1020x16) hz, View.ld_unit_zero (S := S1x16) hz, View.ld_unit_zero (S := S1024x16) hz]

theorem sout_B_2 (hc0 : ¬cond0_0 i) (hc1 : ¬cond0_1 i) :
    sout0_B_2 c i arg1 harg1 arg2 harg2 arg3 harg3 arg4 harg4 arg5 harg5 arg6 harg6 arg7 harg7 arg8 harg8 arg9 harg9 arg10 harg10 hc0 hc1 x0 x1 x2 x3 x4 x5 xs0 xs1 xs2
      = k0_pay3 (k0_pay8 x1 x0 x3 x4 x5) xs2 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 hc0 hc1 x0 x1 x2 x3 x4 x5 xs0 xs1 xs2)]
  unfold kernelRun0_B
  dsimp only
  sl_unfold_words
  rw [View.canon_unit_zero hz]
  simp only [View.readAt_eq_ld, harg1.read_unread, harg2.read_unread, harg4.read_unread,
    harg5.read_unread, harg6.read_unread, harg10.read_unread, View.ld_unit_zero (S := S1x1) hz,
    View.ld_unit_zero (S := S1024x1020) hz, View.ld_unit_zero (S := S1024x255) hz, View.ld_unit_zero (S := S255x1020) hz, View.ld_unit_zero (S := S1020x16) hz,
    View.ld_unit_zero (S := S1x16) hz]

/-- The last point: the accumulators as at a middle point. -/
theorem sout_C_0 (hc0 : ¬cond0_0 i) (hc1 : cond0_1 i) :
    sout0_C_0 c i arg1 harg1 arg2 harg2 arg3 harg3 arg4 harg4 arg5 harg5 arg6 harg6 arg7 harg7 arg8 harg8 arg9 harg9 arg10 harg10 hc0 hc1 x0 x1 x2 x3 x4 x5 xs0 xs1 xs2
      = k0_pay1 (k0_pay9 x1 x0 x3 x4 x5) xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 x5 xs0 xs1 xs2)]
  unfold kernelRun0_C
  dsimp only
  sl_unfold_words
  rw [View.canon_unit_zero hz]
  simp only [View.readAt_eq_ld, harg1.read_unread, harg2.read_unread, harg4.read_unread,
    harg5.read_unread, harg6.read_unread, harg8.read_unread, View.ld_unit_zero (S := S1x1) hz,
    View.ld_unit_zero (S := S1024x1020) hz, View.ld_unit_zero (S := S1024x255) hz, View.ld_unit_zero (S := S255x1020) hz, View.ld_unit_zero (S := S1020x16) hz,
    View.ld_unit_zero (S := S1x16) hz]

theorem sout_C_1 (hc0 : ¬cond0_0 i) (hc1 : cond0_1 i) :
    sout0_C_1 c i arg1 harg1 arg2 harg2 arg3 harg3 arg4 harg4 arg5 harg5 arg6 harg6 arg7 harg7 arg8 harg8 arg9 harg9 arg10 harg10 hc0 hc1 x0 x1 x2 x3 x4 x5 xs0 xs1 xs2
      = k0_pay2 (k0_pay10 x1 x0 x3 x4 x2 x5) xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 hc0 hc1 x0 x1 x2 x3 x4 x5 xs0 xs1 xs2)]
  unfold kernelRun0_C
  dsimp only
  sl_unfold_words
  rw [View.canon_unit_zero hz]
  simp only [View.readAt_eq_ld, harg1.read_unread, harg2.read_unread, harg3.read_unread,
    harg4.read_unread, harg5.read_unread, harg6.read_unread, harg9.read_unread,
    View.ld_unit_zero (S := S1x1) hz, View.ld_unit_zero (S := S1024x1020) hz, View.ld_unit_zero (S := S1024x255) hz, View.ld_unit_zero (S := S255x1020) hz,
    View.ld_unit_zero (S := S1020x16) hz, View.ld_unit_zero (S := S1x16) hz, View.ld_unit_zero (S := S1024x16) hz]

theorem sout_C_2 (hc0 : ¬cond0_0 i) (hc1 : cond0_1 i) :
    sout0_C_2 c i arg1 harg1 arg2 harg2 arg3 harg3 arg4 harg4 arg5 harg5 arg6 harg6 arg7 harg7 arg8 harg8 arg9 harg9 arg10 harg10 hc0 hc1 x0 x1 x2 x3 x4 x5 xs0 xs1 xs2
      = k0_pay3 (k0_pay8 x1 x0 x3 x4 x5) xs2 := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 hc0 hc1 x0 x1 x2 x3 x4 x5 xs0 xs1 xs2)]
  unfold kernelRun0_C
  dsimp only
  sl_unfold_words
  rw [View.canon_unit_zero hz]
  simp only [View.readAt_eq_ld, harg1.read_unread, harg2.read_unread, harg4.read_unread,
    harg5.read_unread, harg6.read_unread, harg10.read_unread, View.ld_unit_zero (S := S1x1) hz,
    View.ld_unit_zero (S := S1024x1020) hz, View.ld_unit_zero (S := S1024x255) hz, View.ld_unit_zero (S := S255x1020) hz, View.ld_unit_zero (S := S1020x16) hz,
    View.ld_unit_zero (S := S1x16) hz]

/-- The last point's output: the mix of the three accumulators after this point's additions. -/
theorem out_C_6 (hc0 : ¬cond0_0 i) (hc1 : cond0_1 i) :
    out0_C_6 c i arg1 harg1 arg2 harg2 arg3 harg3 arg4 harg4 arg5 harg5 arg6 harg6 arg7 harg7 arg8 harg8 arg9 harg9 arg10 harg10 hc0 hc1 x0 x1 x2 x3 x4 x5 xs0 xs1 xs2
      = k0_pay4 (k0_pay1 (k0_pay9 x1 x0 x3 x4 x5) xs0) (k0_pay2 (k0_pay10 x1 x0 x3 x4 x2 x5) xs1)
          (k0_pay3 (k0_pay8 x1 x0 x3 x4 x5) xs2) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 x4 x5 xs0 xs1 xs2)]
  unfold kernelRun0_C
  dsimp only
  sl_unfold_words
  rw [View.canon_unit_zero hz]
  simp only [View.readAt_eq_ld, harg1.read_unread, harg2.read_unread, harg3.read_unread,
    harg4.read_unread, harg5.read_unread, harg6.read_unread, harg8.read_unread,
    harg9.read_unread, harg10.read_unread, View.readCov_unit_zero (S := S1x1) _ hz, View.ld_unit_zero (S := S1x1) hz,
    View.ld_unit_zero (S := S1024x1020) hz, View.ld_unit_zero (S := S1024x255) hz, View.ld_unit_zero (S := S255x1020) hz, View.ld_unit_zero (S := S1020x16) hz,
    View.ld_unit_zero (S := S1x16) hz, View.ld_unit_zero (S := S1024x16) hz]

end Cert.KernelIdeal.Pieces

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.Payloads.lean ====
/-
  The kernel body's arithmetic read entry by entry on the extended reals.  A block is 1024 batch rows.  Row `r`'s
  sixteen link utilisations are the matrix form of the specification's row utilisation over the block's rows of ratios
  and demands, the ownership matrix, the tunnel-to-link table and the capacities; the per-row variance, weighted sum and
  maximum are the specification's row functions of those sixteen numbers; each accumulator update adds the 1024 row
  values to the old contents; the final mix is the specification's `loss`.
-/
import proofs.«151836_j5549097747152_1_alg».proof.Proof.Gen.KernelIdeal.Skeleton
import proofs.«151836_j5549097747152_1_alg».proof.Proof.LinkLoss
import proofs.«151836_j5549097747152_1_alg».proof.Proof.LibRowDims
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Payloads

open Idealize.ShloMosaic Idealize.ShloMosaic.ValueIdx Cert.KernelIdeal Cert.KernelIdeal.Gen Cert.LinkLoss

/-! ## Indices: the source index of a reduction, with the reduced coordinate put back -/

/-- Summing a row's 16 lanes: the source index over row `r` at lane `k` is `(r, k)`. -/
theorem lift_lane (h : S1024x16.Reduces [1] S1024) (r : Fin 1024) (k : Fin 16) : h.lift (ix1 r) k = ix2 r k := by
  funext c
  refine Fin.ext ?_
  match c with
  | ⟨0, _⟩ => rfl
  | ⟨1, _⟩ => rfl

/-- Summing a column of 1024 rows: the source index over the one result entry at row `k` is `(k, 0)`. -/
theorem lift_rows (h : S1024x1.Reduces [0] S1) (j : Fin 1) (k : Fin 1024) : h.lift (ix1 j) k = ix2 k j := by
  funext c
  refine Fin.ext ?_
  match c with
  | ⟨0, _⟩ => rfl
  | ⟨1, _⟩ => rfl

/-! ## The reductions at an index -/

/-- The sum over a row's 16 lanes. -/
theorem laneSum_apply (v : FVec Ideal S1024x16 .f32) (r : Fin 1024) :
    multiReduction (F := Ideal) .add [1] S1024 v 0x00000000#32 reduces_S1024x16_S1024 (.inl rfl) rfl (ix1 r)
      = ∑ l : Fin 16, v (ix2 r l) :=
  (Ideal.multiReduction_add_single v 0x00000000#32 reduces_S1024x16_S1024 (.inl rfl) rfl (ix1 r)).trans
    (Finset.sum_congr rfl fun k _ => congrArg v (lift_lane _ r k))

/-- The maximum over a row's 16 lanes, from minus infinity's word. -/
theorem laneMax_apply (v : FVec Ideal S1024x16 .f32) (r : Fin 1024) :
    multiReduction (F := Ideal) .maximumf [1] S1024 v 0xFF800000#32 reduces_S1024x16_S1024 (.inl rfl) rfl (ix1 r)
      = rowMax (fun l => v (ix2 r l)) :=
  (Ideal.multiReduction_maximumf_single v 0xFF800000#32 reduces_S1024x16_S1024 (.inl rfl) rfl (ix1 r)).trans
    (congrArg (fun u : Fin 16 → EReal => (Finset.univ : Finset (Fin 16)).fold max (Ideal.ofBits .f32 0xFF800000#32) u)
      (funext fun k => congrArg v (lift_lane _ r k)))

/-- The sum of a column over the 1024 rows of a block. -/
theorem rowsSum_apply (v : FVec Ideal S1024x1 .f32) (j : Fin 1) :
    multiReduction (F := Ideal) .add [0] S1 v 0x00000000#32 reduces_S1024x1_S1 (.inl rfl) rfl (ix1 j)
      = ∑ r : Fin 1024, v (ix2 r j) :=
  (Ideal.multiReduction_add_single v 0x00000000#32 reduces_S1024x1_S1 (.inl rfl) rfl (ix1 j)).trans
    (Finset.sum_congr rfl fun k _ => congrArg v (lift_rows _ j k))

/-! ## Layout operations at an index: a column kept as a unit axis -/

/-- A vector `[a]` viewed as a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry vector viewed as a one-entry matrix reads its entry everywhere. -/
theorem shapeCast_1_11_apply {α : Type} (x : S1.Idx → α) (h : S1.ShapeCasts S1x1) (y : S1x1.Idx) :
    shapeCast S1x1 x h y = x (ix1 0) :=
  shapeCast_apply x h y (ix1 0) (by
    have h0 : (y 0).val < 1 := (y 0).isLt
    have h1 : (y 1).val < 1 := (y 1).isLt
    rw [Shape.rowMajor_val_one, Shape.rowMajor_val_two]
    show (0 : ℕ) = (y 0).val * 1 + (y 1).val
    omega)

/-! ## The two matrix products at an entry -/

/-- Demands against the ownership matrix: entry `(r, t)` is the sum over the 255 destinations. -/
theorem matmul_dm_apply (a : FVec Ideal S1024x255 .bf16) (b : FVec Ideal S255x1020 .bf16) (r : Fin 1024) (t : Fin 1020) :
    matmul dot_S1024x255_S255x1020_S1024x1020_1_0_0_1_n_n none a b (constant (F := Ideal) S1024x1020 .f32 0x00000000#32)
        (ix2 r t)
      = ∑ d : Fin 255, a (ix2 r d) * b (ix2 d t) :=
  RowDims.matmul_plain_zero_apply (M := 1024) (K := 255) (N := 1020) none a b r t

/-- Tunnel traffic against the tunnel-to-link table: entry `(r, l)` is the sum over the 1020 tunnels. -/
theorem matmul_tl_apply (a : FVec Ideal S1024x1020 .bf16) (b : FVec Ideal S1020x16 .bf16) (r : Fin 1024) (l : Fin 16) :
    matmul dot_S1024x1020_S1020x16_S1024x16_1_0_0_1_n_n none a b (constant (F := Ideal) S1024x16 .f32 0x00000000#32)
        (ix2 r l)
      = ∑ t : Fin 1020, a (ix2 r t) * b (ix2 t l) :=
  RowDims.matmul_plain_zero_apply (M := 1024) (K := 1020) (N := 16) none a b r l

variable (x0 : Vec Ideal S1024x1020 .f32) (x1 : Vec Ideal S1024x255 .f32) (x2 : Vec Ideal S1024x16 .f32)
  (x3 : Vec Ideal S255x1020 .f32) (x4 : Vec Ideal S1020x16 .f32) (x5 : Vec Ideal S1x16 .f32)

/-- Row `r` of a block: its sixteen link utilisations, the demands repeated through the matrix `x3`. -/
def blockUtil (r : Fin 1024) : Fin 16 → EReal :=
  rowUtilE (fun t => x0 (ix2 r t)) (fun d => x1 (ix2 r d)) (fun d t => x3 (ix2 d t)) (fun t l => x4 (ix2 t l))
    (fun l => x5 (ix2 0 l))

/-- The utilisation block at row `r`, link `l`. -/
theorem pay8_apply (r : Fin 1024) (l : Fin 16) :
    k0_pay8 (F := Ideal) x1 x0 x3 x4 x5 (ix2 r l) = blockUtil x0 x1 x3 x4 x5 r l := by
  unfold k0_pay8 blockUtil rowUtilE
  dsimp only
  refine congrArg₂ Ideal.div ?_ ?_
  · -- the traffic of link `l`: the sum over the tunnels of traffic times table entry
    refine (matmul_tl_apply _ _ r l).trans ?_
    refine Finset.sum_congr rfl fun t _ => ?_
    refine congrArg₂ (· * ·) ?_ ?_
    · -- the traffic of tunnel `t`: its ratio times the demands summed against the ownership matrix
      refine congrArg (x0 (ix2 r t) * ·) ?_
      refine (matmul_dm_apply _ _ r t).trans ?_
      refine Finset.sum_congr rfl fun d _ => ?_
      refine congrArg (x1 (ix2 r d) * ·) ?_
      exact congrFun (shapeCast_self x3 _) (ix2 d t)
    · exact congrFun (shapeCast_self x4 _) (ix2 t l)
  · -- the capacity of link `l` plus the offset, the one row of capacities read at every block row
    refine (broadcastTo_1b_ab_apply _ _ r l).trans ?_
    refine congrArg (· + eps) ?_
    exact congrFun (shapeCast_self x5 _) (ix2 0 l)

/-- The per-row variances of a block. -/
theorem pay9_apply (r : Fin 1024) :
    k0_pay9 (F := Ideal) x1 x0 x3 x4 x5 (ix2 r 0) = rowVar (blockUtil x0 x1 x3 x4 x5 r) := by
  have hP : (fun l => k0_pay8 (F := Ideal) x1 x0 x3 x4 x5 (ix2 r l)) = blockUtil x0 x1 x3 x4 x5 r :=
    funext fun l => pay8_apply x0 x1 x3 x4 x5 r l
  rw [← hP]
  unfold k0_pay9
  generalize k0_pay8 (F := Ideal) x1 x0 x3 x4 x5 = P
  dsimp only
  unfold rowVar
  -- the squared deviations of row `r` summed over its 16 lanes, over 15
  refine congrArg (Ideal.div · (Ideal.ofBits .f32 0x41700000#32)) ?_
  refine (shapeCast_a_a1_apply _ _ r 0).trans ?_
  refine (laneSum_apply _ r).trans ?_
  refine Finset.sum_congr rfl fun l _ => ?_
  refine congrArg (fun m => (P (ix2 r l) - m) * (P (ix2 r l) - m)) ?_
  -- the mean of row `r`, kept as a column and read at every lane: the lane sum over 16
  refine (broadcastTo_a1_ab_apply _ _ r l).trans ?_
  unfold rowMean
  refine congrArg (Ideal.div · (Ideal.ofBits .f32 0x41800000#32)) ?_
  refine (shapeCast_a_a1_apply _ _ r 0).trans ?_
  exact laneSum_apply P r

/-- The per-row weighted sums of a block. -/
theorem pay10_apply (r : Fin 1024) :
    k0_pay10 (F := Ideal) x1 x0 x3 x4 x2 x5 (ix1 r) = rowCong (blockUtil x0 x1 x3 x4 x5 r) (fun l => x2 (ix2 r l)) := by
  unfold k0_pay10 rowCong
  dsimp only
  refine (laneSum_apply _ r).trans ?_
  refine Finset.sum_congr rfl fun l _ => ?_
  exact congrArg (· * x2 (ix2 r l)) (pay8_apply x0 x1 x3 x4 x5 r l)

/-- The variance accumulator's update: old contents plus the 1024 row values. -/
theorem pay1_apply (v33 : FVec Ideal S1024x1 .f32) (v39 : Vec Ideal S1x1 .f32) (y : S1x1.Idx) :
    k0_pay1 (F := Ideal) v33 v39 y = v39 y + ∑ r : Fin 1024, v33 (ix2 r 0) := by
  unfold k0_pay1
  dsimp only
  refine (congrFun (shapeCast_self _ _) y).trans ?_
  refine congrArg (v39 y + ·) ?_
  refine (shapeCast_1_11_apply _ _ y).trans ?_
  exact rowsSum_apply v33 0

/-- The weighted-sum accumulator's update. -/
theorem pay2_apply (v35 : FVec Ideal S1024 .f32) (v46 : Vec Ideal S1x1 .f32) (y : S1x1.Idx) :
    k0_pay2 (F := Ideal) v35 v46 y = v46 y + ∑ r : Fin 1024, v35 (ix1 r) := by
  unfold k0_pay2
  dsimp only
  refine (congrFun (shapeCast_self _ _) y).trans ?_
  refine congrArg (v46 y + ·) ?_
  refine (shapeCast_1_11_apply _ _ y).trans ?_
  refine (rowsSum_apply _ 0).trans ?_
  exact Finset.sum_congr rfl fun r _ => shapeCast_a_a1_apply _ _ r 0

/-- The maxima accumulator's update: old contents plus the 1024 row maxima. -/
theorem pay3_apply (v22 : FVec Ideal S1024x16 .f32) (v53 : Vec Ideal S1x1 .f32) (y : S1x1.Idx) :
    k0_pay3 (F := Ideal) v22 v53 y = v53 y + ∑ r : Fin 1024, rowMax (fun l => v22 (ix2 r l)) := by
  unfold k0_pay3
  dsimp only
  refine (congrFun (shapeCast_self _ _) y).trans ?_
  refine congrArg (v53 y + ·) ?_
  refine (shapeCast_1_11_apply _ _ y).trans ?_
  refine (rowsSum_apply _ 0).trans ?_
  refine Finset.sum_congr rfl fun r _ => ?_
  refine (shapeCast_a_a1_apply _ _ r 0).trans ?_
  exact laneMax_apply v22 r

/-- The final mix of the three accumulators. -/
theorem pay4_apply (v63 v66 v69 : Vec Ideal S1x1 .f32) (y : S1x1.Idx) :
    k0_pay4 (F := Ideal) v63 v66 v69 y = loss (v63 y) (v66 y) (v69 y) := by
  unfold k0_pay4 loss
  rfl

/-- The zeros stored at the first point. -/
theorem pay5_apply (y : S1x1.Idx) : k0_pay5 (F := Ideal) y = 0 := by
  unfold k0_pay5
  exact (congrFun (shapeCast_self _ _) y).trans Ideal.ofBits_zero_f32
theorem pay6_apply (y : S1x1.Idx) : k0_pay6 (F := Ideal) y = 0 := by
  unfold k0_pay6
  exact (congrFun (shapeCast_self _ _) y).trans Ideal.ofBits_zero_f32
theorem pay7_apply (y : S1x1.Idx) : k0_pay7 (F := Ideal) y = 0 := by
  unfold k0_pay7
  exact (congrFun (shapeCast_self _ _) y).trans Ideal.ofBits_zero_f32

end Cert.KernelIdeal.Payloads

end
-- ==== Proof.HostPrefix.lean ====
/-
  The three arrays the host operations before the kernel region build from the arguments, read entry by entry:
  the ownership matrix (entry (d, t) is 1 where tunnel t belongs to destination d, that is where t / 4 = d, else 0),
  the tunnel-to-link table (the specification's `oneHot` of the link numbers), and the capacities laid out as one row.
-/
import proofs.«151836_j5549097747152_1_alg».proof.Proof.Gen.KernelIdeal.Frame
import proofs.«151836_j5549097747152_1_alg».proof.Proof.LinkLoss
import Idealize.ShloMosaic.Lib.StableHlo.Run
import Idealize.ShloMosaic.Lib.StableHlo.Predicate
import Idealize.ShloMosaic.Lib.ValueIdx
import Idealize.ShloMosaic.Lib.Pipeline.Value

noncomputable section

namespace Cert.KernelIdeal.HostPrefix

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD)

/-! ## The ownership matrix -/

/-- Floor division by 4 at one word: the quotient rounded toward zero, lowered by one where dividend and divisor
    have different signs and the remainder is not zero. -/
def fdiv4 (x : BitVec 32) : BitVec 32 :=
  Scalar.select
    (IntOp.andi
      (IntOp.cmpi .ne (if x = 0 then 0 else if x.msb then -1 else 1 : BitVec 32)
        (if (4#32 : BitVec 32) = 0 then 0 else if (4#32 : BitVec 32).msb then -1 else 1 : BitVec 32))
      (IntOp.cmpi .ne (IntOp.remsi .host x 4#32) 0#32))
    (IntOp.subi (IntOp.divsi .host x 4#32) 1#32)
    (IntOp.divsi .host x 4#32)

/-- On the tunnel numbers the floor division is the plain quotient: a tunnel number is not negative, so either it is
    zero (remainder zero) or its sign is the divisor's, and the quotient is never lowered. Checked at each of the 1020
    tunnel numbers. -/
theorem fdiv4_small : ∀ t : Fin 1020, fdiv4 (BitVec.ofNat 32 t.val) = BitVec.ofNat 32 (t.val / 4) := by
  decide +kernel

/-- The tunnel numbers along a row, each floor-divided by 4: the row of owning destinations. -/
def quot4 : IVec S1x1020 32 :=
  let x : IVec S1x1020 32 := broadcastInDim S1x1020 ![1] bcast_S1020_S1x1020_1 (iotaInDim S1020 32 0)
  let k : IVec S_ 32 := constantI S_ 32 4#32
  let kb : IVec S1x1020 32 := broadcastInDim S1x1020 ![] bcast_S_S1x1020 k
  let q : IVec S1x1020 32 := Host.divsi x kb
  select
    (andi (cmpi .ne (signi x) (broadcastInDim S1x1020 ![] bcast_S_S1x1020 (signi k)))
      (cmpi .ne (Host.remsi x kb) (broadcastInDim S1x1020 ![] bcast_S_S1x1020 (constantI S_ 32 0#32))))
    (subi q (broadcastInDim S1x1020 ![] bcast_S_S1x1020 (constantI S_ 32 1#32)))
    q

/-- The ownership matrix as the host operations build it: the row of owning destinations repeated down the 255 rows
    against the destination numbers repeated along the 1020 columns, compared word by word, the bit made a float. -/
theorem expand_eq :
    (V m c main_v8 : S255x1020.Idx → EReal)
      = uitofp (F := Ideal) .f32 (cmpi .eq
          (broadcastInDim S255x1020 ![0, 1] bcast_S1x1020_S255x1020_0_1 quot4)
          (broadcastInDim S255x1020 ![0, 1] bcast_S255x1_S255x1020_0_1
            (broadcastInDim S255x1 ![0] bcast_S255_S255x1_0 (iotaInDim S255 32 0)))) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

/-- The row of owning destinations read at tunnel `t`: the word of `t / 4`. Entry `t` of the row of tunnel numbers
    is the word of `t`, a repeated scalar reads the scalar, and every other operation of the chain acts entry by entry. -/
theorem quot4_apply (t : Fin 1020) : quot4 (ix2 (0 : Fin 1) t) = BitVec.ofNat 32 (t.val / 4) := by
  have hx : (broadcastInDim S1x1020 ![1] bcast_S1020_S1x1020_1 (iotaInDim S1020 32 0) : IVec S1x1020 32) (ix2 (0 : Fin 1) t)
      = BitVec.ofNat 32 t.val :=
    (StableHlo.Predicate.bcast_row1 bcast_S1020_S1x1020_1 (iotaInDim S1020 32 0) t).trans (StableHlo.Predicate.iota_apply t)
  have hs : ∀ v : IVec S_ 32,
      (broadcastInDim S1x1020 ![] bcast_S_S1x1020 v : IVec S1x1020 32) (ix2 (0 : Fin 1) t) = v ix0 := fun v => by
    rw [StableHlo.Predicate.bcast_scalar bcast_S_S1x1020 (by decide) v]
    exact congrArg v (funext fun a => a.elim0)
  rw [← fdiv4_small t]
  unfold quot4 fdiv4
  simp only [select, andi, cmpi, signi, subi, Host.divsi, Host.remsi, hx, hs, constantI]
  rfl

/-- The ownership matrix the region finds: 1 where tunnel `t` belongs to destination `d`, else 0. -/
theorem expand_apply (d : Fin 255) (t : Fin 1020) :
    (V m c main_v8 : S255x1020.Idx → EReal) (ix2 d t) = if t.val / 4 = d.val then (1 : EReal) else 0 := by
  rw [expand_eq m c]
  -- entry (d, t) compares the word of t / 4 with the word of d
  have hA : (broadcastInDim S255x1020 ![0, 1] bcast_S1x1020_S255x1020_0_1 quot4 : IVec S255x1020 32) (ix2 d t)
      = BitVec.ofNat 32 (t.val / 4) :=
    (StableHlo.Predicate.bcast_of_row bcast_S1x1020_S255x1020_0_1 quot4 d t).trans (quot4_apply t)
  have hB : (broadcastInDim S255x1020 ![0, 1] bcast_S255x1_S255x1020_0_1
        (broadcastInDim S255x1 ![0] bcast_S255_S255x1_0 (iotaInDim S255 32 0)) : IVec S255x1020 32) (ix2 d t)
      = BitVec.ofNat 32 d.val :=
    (StableHlo.Predicate.bcast_rows bcast_S255_S255x1_0 bcast_S255x1_S255x1020_0_1 (iotaInDim S255 32 0) d t).trans
      (StableHlo.Predicate.iota_apply d)
  simp only [uitofp, cmpi, hA, hB]
  have hd := d.isLt
  have ht := t.isLt
  by_cases h : t.val / 4 = d.val
  · -- equal numbers, equal words: the bit is 1, whose float is 1
    rw [if_pos h, h, StableHlo.Predicate.cmpi_eq_iff.mpr rfl]
    show (((1#1 : BitVec 1).toNat : ℝ) : EReal) = 1
    simp
  · -- both numbers are far below 2 ^ 32, so different numbers are different words: the bit is 0, whose float is 0
    rw [if_neg h]
    have hne : BitVec.ofNat 32 (t.val / 4) ≠ BitVec.ofNat 32 d.val := by
      intro e
      have := congrArg BitVec.toNat e
      simp only [BitVec.toNat_ofNat] at this
      omega
    have h0 : IntOp.cmpi .eq (BitVec.ofNat 32 (t.val / 4)) (BitVec.ofNat 32 d.val) = 0#1 := by
      rcases BitVec.eq_zero_or_eq_one (IntOp.cmpi .eq (BitVec.ofNat 32 (t.val / 4)) (BitVec.ofNat 32 d.val)) with h0 | h1
      · exact h0
      · exact absurd (StableHlo.Predicate.cmpi_eq_iff.mp h1) hne
    rw [h0]
    show (((0#1 : BitVec 1).toNat : ℝ) : EReal) = 0
    simp

/-! ## The tunnel-to-link table -/

/-- The tunnel-to-link table the region finds is the specification's table of the link numbers: the host operations
    that build it are the specification's, one for one. -/
theorem onehot_eq :
    (V m c main_v9 : S1020x16.Idx → EReal) = Cert.LinkLoss.oneHot (m ((c : Thread nD τ).loc main_arg4)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-! ## The capacities -/

/-- The capacities the region finds are the sixteen capacities of the argument, the same elements in row-major order
    under the shape 1 × 16. -/
theorem cap_eq :
    (V m c main_v10 : S1x16.Idx → EReal)
      = (fun i => shapeCast S1x16 (m ((c : Thread nD τ).loc main_arg3) : S16.Idx → EReal) shapeCasts_S16_S1x16 i) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The capacities the region finds, as one row of sixteen. -/
theorem cap_apply (l : Fin 16) :
    (V m c main_v10 : S1x16.Idx → EReal) (ix2 0 l) = (m ((c : Thread nD τ).loc main_arg3) : S16.Idx → EReal) (ix1 l) := by
  rw [cap_eq m c]
  -- position (0, l) of the row and position l of the vector are the same place in row-major order
  refine shapeCast_apply (s := S16) (t := S1x16) (m ((c : Thread nD τ).loc main_arg3) : S16.Idx → EReal)
    shapeCasts_S16_S1x16 (ix2 0 l) (ix1 l) ?_
  rw [Shape.rowMajor_val_two, Shape.rowMajor_val_one]
  show l.val = 0 * 16 + l.val
  omega

end Cert.KernelIdeal.HostPrefix

end
-- ==== Proof.Accumulate.lean ====
/-
  The kernel's program read as a value: what its three accumulators hold after each grid point, and the number it
  returns.

  Grid point `t` works on batch rows `1024 t … 1024 t + 1023`: the windows of the ratios, demands and current
  utilisations hand it those rows, the other three windows the whole ownership matrix, tunnel-to-link table and
  capacity row.  So row `r` of the block's utilisations is the specification's utilisations of batch row
  `1024 t + r` (the ownership matrix turns the matrix product into the repeat of the demands), and after point `n`
  each accumulator holds the sum of its row function over the first `1024 (n + 1)` rows: by induction on the point,
  a stretch of 1024 rows at a time.  After the last point that is the sum over the whole batch, the output block is
  the mix of the three sums, the one write-back puts it into the 1 × 1 result array, and the host's reshape hands it
  on as the scalar result.
-/
import proofs.«151836_j5549097747152_1_alg».proof.Proof.Gen.KernelIdeal.Frame
import proofs.«151836_j5549097747152_1_alg».proof.Proof.LinkLoss
import proofs.«151836_j5549097747152_1_alg».proof.Proof.Pieces
import proofs.«151836_j5549097747152_1_alg».proof.Proof.Payloads
import proofs.«151836_j5549097747152_1_alg».proof.Proof.HostPrefix
import Idealize.ShloMosaic.Lib.Pipeline.Value
import Idealize.ShloMosaic.Lib.StableHlo.Run
import Idealize.ShloMosaic.Lib.ValueIdx

set_option maxRecDepth 16384

noncomputable section

open scoped BigOperators

namespace Cert.KernelIdeal.Accumulate

open Idealize.ShloMosaic Idealize.ShloMosaic.TcCoe Idealize.SL.Sem Idealize.ShloMosaic.ValueIdx
open Idealize.ShloMosaic.Pipeline (Dat)
open Cert.KernelIdeal Cert.KernelIdeal.Gen Cert.LinkLoss Cert.KernelIdeal.Payloads

variable (m : (ℓ : Loc nD τ sig) → Buf (Elt Ideal) ℓ) (ρ : Dev nD → PrngReg)

/-! ## The arguments and the blocks, by their literal types -/

abbrev PR (c : Dev nD) : S16384x1020.Idx → EReal := m ((c : Thread nD τ).loc main_arg0)
abbrev DM (c : Dev nD) : S16384x255.Idx → EReal := m ((c : Thread nD τ).loc main_arg1)
abbrev CLU (c : Dev nD) : S16384x16.Idx → EReal := m ((c : Thread nD τ).loc main_arg2)
abbrev CAP (c : Dev nD) : S16.Idx → EReal := m ((c : Thread nD τ).loc main_arg3)
abbrev OH (c : Dev nD) : S1020x16.Idx → EReal := oneHot (m ((c : Thread nD τ).loc main_arg4))

abbrev blk0 (c : Dev nD) (t : Fin cfg0.N) : Vec Ideal S1024x1020 .f32 := iblk m c 0 t
abbrev blk1 (c : Dev nD) (t : Fin cfg0.N) : Vec Ideal S1024x255 .f32 := iblk m c 1 t
abbrev blk2 (c : Dev nD) (t : Fin cfg0.N) : Vec Ideal S1024x16 .f32 := iblk m c 2 t
abbrev blk3 (c : Dev nD) (t : Fin cfg0.N) : Vec Ideal S255x1020 .f32 := iblk m c 3 t
abbrev blk4 (c : Dev nD) (t : Fin cfg0.N) : Vec Ideal S1020x16 .f32 := iblk m c 4 t
abbrev blk5 (c : Dev nD) (t : Fin cfg0.N) : Vec Ideal S1x16 .f32 := iblk m c 5 t

/-- The batch row that row `r` of point `t`'s blocks is. -/
def rowOf (t : Fin cfg0.N) (r : Fin 1024) : Fin 16384 :=
  ⟨1024 * t.val + r.val, by have := r.isLt; have := t.isLt; have : cfg0.N = 16 := N_0; omega⟩

/-! ## The blocks read off the arrays -/

theorem blk0_apply (c : Dev nD) (t : Fin cfg0.N) (r : Fin 1024) (k : Fin 1020) :
    blk0 m c t (ix2 r k) = PR m c (ix2 (rowOf t r) k) := by
  have hi : win0_0.index t 0 = t.val ∧ win0_0.index t 1 = 0 :=
    (by decide +kernel : ∀ t : Fin grid0.N, win0_0.index t 0 = t.val ∧ win0_0.index t 1 = 0) t
  unfold blk0 iblk
  rw [View.read_apply]
  show V m c main_arg0 _ = _
  refine (congrFun (V_main_arg0 m c) _).trans ?_
  unfold PR
  congr 1
  funext a
  apply Fin.ext
  match a with
  | ⟨0, _⟩ => show win0_0.index t 0 * 1024 + 1 * r.val = 1024 * t.val + r.val; rw [hi.1]; omega
  | ⟨1, _⟩ => show win0_0.index t 1 * 1020 + 1 * k.val = k.val; rw [hi.2]; omega

theorem blk1_apply (c : Dev nD) (t : Fin cfg0.N) (r : Fin 1024) (k : Fin 255) :
    blk1 m c t (ix2 r k) = DM m c (ix2 (rowOf t r) k) := by
  have hi : win0_1.index t 0 = t.val ∧ win0_1.index t 1 = 0 :=
    (by decide +kernel : ∀ t : Fin grid0.N, win0_1.index t 0 = t.val ∧ win0_1.index t 1 = 0) t
  unfold blk1 iblk
  rw [View.read_apply]
  show V m c main_arg1 _ = _
  refine (congrFun (V_main_arg1 m c) _).trans ?_
  unfold DM
  congr 1
  funext a
  apply Fin.ext
  match a with
  | ⟨0, _⟩ => show win0_1.index t 0 * 1024 + 1 * r.val = 1024 * t.val + r.val; rw [hi.1]; omega
  | ⟨1, _⟩ => show win0_1.index t 1 * 255 + 1 * k.val = k.val; rw [hi.2]; omega

theorem blk2_apply (c : Dev nD) (t : Fin cfg0.N) (r : Fin 1024) (k : Fin 16) :
    blk2 m c t (ix2 r k) = CLU m c (ix2 (rowOf t r) k) := by
  have hi : win0_2.index t 0 = t.val ∧ win0_2.index t 1 = 0 :=
    (by decide +kernel : ∀ t : Fin grid0.N, win0_2.index t 0 = t.val ∧ win0_2.index t 1 = 0) t
  unfold blk2 iblk
  rw [View.read_apply]
  show V m c main_arg2 _ = _
  refine (congrFun (V_main_arg2 m c) _).trans ?_
  unfold CLU
  congr 1
  funext a
  apply Fin.ext
  match a with
  | ⟨0, _⟩ => show win0_2.index t 0 * 1024 + 1 * r.val = 1024 * t.val + r.val; rw [hi.1]; omega
  | ⟨1, _⟩ => show win0_2.index t 1 * 16 + 1 * k.val = k.val; rw [hi.2]; omega

/-- The ownership matrix's window is the whole matrix at every point. -/
theorem blk3_apply (c : Dev nD) (t : Fin cfg0.N) (d : Fin 255) (k : Fin 1020) :
    blk3 m c t (ix2 d k) = if k.val / 4 = d.val then (1 : EReal) else 0 := by
  have hi : win0_3.index t 0 = 0 ∧ win0_3.index t 1 = 0 :=
    (by decide +kernel : ∀ t : Fin grid0.N, win0_3.index t 0 = 0 ∧ win0_3.index t 1 = 0) t
  rw [← HostPrefix.expand_apply m c d k]
  unfold blk3 iblk
  rw [View.read_apply]
  show V m c main_v8 _ = V m c main_v8 _
  congr 1
  funext a
  apply Fin.ext
  match a with
  | ⟨0, _⟩ => show win0_3.index t 0 * 255 + 1 * d.val = d.val; rw [hi.1]; omega
  | ⟨1, _⟩ => show win0_3.index t 1 * 1020 + 1 * k.val = k.val; rw [hi.2]; omega

/-- The table's window is the whole table at every point. -/
theorem blk4_apply (c : Dev nD) (t : Fin cfg0.N) (k : Fin 1020) (l : Fin 16) :
    blk4 m c t (ix2 k l) = OH m c (ix2 k l) := by
  have hi : win0_4.index t 0 = 0 ∧ win0_4.index t 1 = 0 :=
    (by decide +kernel : ∀ t : Fin grid0.N, win0_4.index t 0 = 0 ∧ win0_4.index t 1 = 0) t
  unfold OH
  rw [← HostPrefix.onehot_eq m c]
  unfold blk4 iblk
  rw [View.read_apply]
  show V m c main_v9 _ = V m c main_v9 _
  congr 1
  funext a
  apply Fin.ext
  match a with
  | ⟨0, _⟩ => show win0_4.index t 0 * 1020 + 1 * k.val = k.val; rw [hi.1]; omega
  | ⟨1, _⟩ => show win0_4.index t 1 * 16 + 1 * l.val = l.val; rw [hi.2]; omega

/-- The capacity row's window is the whole row at every point. -/
theorem blk5_apply (c : Dev nD) (t : Fin cfg0.N) (l : Fin 16) :
    blk5 m c t (ix2 0 l) = CAP m c (ix1 l) := by
  have hi : win0_5.index t 0 = 0 ∧ win0_5.index t 1 = 0 :=
    (by decide +kernel : ∀ t : Fin grid0.N, win0_5.index t 0 = 0 ∧ win0_5.index t 1 = 0) t
  unfold CAP
  rw [← HostPrefix.cap_apply m c l]
  unfold blk5 iblk
  rw [View.read_apply]
  show V m c main_v10 _ = V m c main_v10 _
  congr 1
  funext a
  apply Fin.ext
  match a with
  | ⟨0, _⟩ => show win0_5.index t 0 * 1 + 1 * 0 = 0; rw [hi.1]
  | ⟨1, _⟩ => show win0_5.index t 1 * 16 + 1 * l.val = l.val; rw [hi.2]; omega

/-! ## A block row is a batch row -/

/-- Row `r` of point `t`'s utilisation block. -/
abbrev U (c : Dev nD) (t : Fin cfg0.N) (r : Fin 1024) : Fin 16 → EReal :=
  blockUtil (blk0 m c t) (blk1 m c t) (blk3 m c t) (blk4 m c t) (blk5 m c t) r

/-- It is the specification's utilisations of batch row `1024 t + r`: the ownership matrix makes the product with the
    demands their repeat, and the blocks are rows of the arrays. -/
theorem U_eq (c : Dev nD) (t : Fin cfg0.N) (r : Fin 1024) :
    U m c t r = utilOf (PR m c) (DM m c) (OH m c) (CAP m c) (rowOf t r) := by
  funext l
  unfold U blockUtil utilOf
  rw [rowUtilE_owner _ _ _ (fun d k => blk3_apply m c t d k)]
  simp only [blk0_apply, blk1_apply, blk4_apply, blk5_apply]

/-! ## What each point leaves in the accumulators, as the body's arithmetic -/

theorem var_A (c : Dev nD) (t : Fin cfg0.N) (h0 : t.val % 16 = 0) (h1 : ¬t.val % 16 = 15) :
    (outsAt0 m c t.val t.isLt).2.1 = k0_pay1 (k0_pay9 (blk1 m c t) (blk0 m c t) (blk3 m c t) (blk4 m c t) (blk5 m c t)) (k0_pay5 (F := Ideal)) := by
  rw [outsAt0_A m c t h0 h1]
  dsimp only
  exact Pieces.sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) ((hcond0_0 t).mpr h0) (fun h => h1 ((hcond0_1 t).mp h))

theorem var_B (c : Dev nD) (t : Fin cfg0.N) (h0 : ¬t.val % 16 = 0) (h1 : ¬t.val % 16 = 15) :
    (outsAt0 m c t.val t.isLt).2.1 = k0_pay1 (k0_pay9 (blk1 m c t) (blk0 m c t) (blk3 m c t) (blk4 m c t) (blk5 m c t)) (outsAt0 m c (t.val - 1) (Nat.lt_of_le_of_lt (Nat.sub_le _ _) t.isLt)).2.1 := by
  rw [outsAt0_B m c t h0 h1]
  dsimp only
  exact Pieces.sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h))

theorem var_C (c : Dev nD) (t : Fin cfg0.N) (h0 : ¬t.val % 16 = 0) (h1 : t.val % 16 = 15) :
    (outsAt0 m c t.val t.isLt).2.1 = k0_pay1 (k0_pay9 (blk1 m c t) (blk0 m c t) (blk3 m c t) (blk4 m c t) (blk5 m c t)) (outsAt0 m c (t.val - 1) (Nat.lt_of_le_of_lt (Nat.sub_le _ _) t.isLt)).2.1 := by
  rw [outsAt0_C m c t h0 h1]
  dsimp only
  exact Pieces.sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)

theorem cong_A (c : Dev nD) (t : Fin cfg0.N) (h0 : t.val % 16 = 0) (h1 : ¬t.val % 16 = 15) :
    (outsAt0 m c t.val t.isLt).2.2.1 = k0_pay2 (k0_pay10 (blk1 m c t) (blk0 m c t) (blk3 m c t) (blk4 m c t) (blk2 m c t) (blk5 m c t)) (k0_pay6 (F := Ideal)) := by
  rw [outsAt0_A m c t h0 h1]
  dsimp only
  exact Pieces.sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) ((hcond0_0 t).mpr h0) (fun h => h1 ((hcond0_1 t).mp h))

theorem cong_B (c : Dev nD) (t : Fin cfg0.N) (h0 : ¬t.val % 16 = 0) (h1 : ¬t.val % 16 = 15) :
    (outsAt0 m c t.val t.isLt).2.2.1 = k0_pay2 (k0_pay10 (blk1 m c t) (blk0 m c t) (blk3 m c t) (blk4 m c t) (blk2 m c t) (blk5 m c t)) (outsAt0 m c (t.val - 1) (Nat.lt_of_le_of_lt (Nat.sub_le _ _) t.isLt)).2.2.1 := by
  rw [outsAt0_B m c t h0 h1]
  dsimp only
  exact Pieces.sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h))

theorem cong_C (c : Dev nD) (t : Fin cfg0.N) (h0 : ¬t.val % 16 = 0) (h1 : t.val % 16 = 15) :
    (outsAt0 m c t.val t.isLt).2.2.1 = k0_pay2 (k0_pay10 (blk1 m c t) (blk0 m c t) (blk3 m c t) (blk4 m c t) (blk2 m c t) (blk5 m c t)) (outsAt0 m c (t.val - 1) (Nat.lt_of_le_of_lt (Nat.sub_le _ _) t.isLt)).2.2.1 := by
  rw [outsAt0_C m c t h0 h1]
  dsimp only
  exact Pieces.sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)

theorem max_A (c : Dev nD) (t : Fin cfg0.N) (h0 : t.val % 16 = 0) (h1 : ¬t.val % 16 = 15) :
    (outsAt0 m c t.val t.isLt).2.2.2 = k0_pay3 (k0_pay8 (blk1 m c t) (blk0 m c t) (blk3 m c t) (blk4 m c t) (blk5 m c t)) (k0_pay7 (F := Ideal)) := by
  rw [outsAt0_A m c t h0 h1]
  dsimp only
  exact Pieces.sout_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) ((hcond0_0 t).mpr h0) (fun h => h1 ((hcond0_1 t).mp h))

theorem max_B (c : Dev nD) (t : Fin cfg0.N) (h0 : ¬t.val % 16 = 0) (h1 : ¬t.val % 16 = 15) :
    (outsAt0 m c t.val t.isLt).2.2.2 = k0_pay3 (k0_pay8 (blk1 m c t) (blk0 m c t) (blk3 m c t) (blk4 m c t) (blk5 m c t)) (outsAt0 m c (t.val - 1) (Nat.lt_of_le_of_lt (Nat.sub_le _ _) t.isLt)).2.2.2 := by
  rw [outsAt0_B m c t h0 h1]
  dsimp only
  exact Pieces.sout_B_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h))

theorem max_C (c : Dev nD) (t : Fin cfg0.N) (h0 : ¬t.val % 16 = 0) (h1 : t.val % 16 = 15) :
    (outsAt0 m c t.val t.isLt).2.2.2 = k0_pay3 (k0_pay8 (blk1 m c t) (blk0 m c t) (blk3 m c t) (blk4 m c t) (blk5 m c t)) (outsAt0 m c (t.val - 1) (Nat.lt_of_le_of_lt (Nat.sub_le _ _) t.isLt)).2.2.2 := by
  rw [outsAt0_C m c t h0 h1]
  dsimp only
  exact Pieces.sout_C_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)

theorem out_C (c : Dev nD) (t : Fin cfg0.N) (h0 : ¬t.val % 16 = 0) (h1 : t.val % 16 = 15) :
    (outsAt0 m c t.val t.isLt).1 = k0_pay4 (k0_pay1 (k0_pay9 (blk1 m c t) (blk0 m c t) (blk3 m c t) (blk4 m c t) (blk5 m c t)) (outsAt0 m c (t.val - 1) (Nat.lt_of_le_of_lt (Nat.sub_le _ _) t.isLt)).2.1) (k0_pay2 (k0_pay10 (blk1 m c t) (blk0 m c t) (blk3 m c t) (blk4 m c t) (blk2 m c t) (blk5 m c t)) (outsAt0 m c (t.val - 1) (Nat.lt_of_le_of_lt (Nat.sub_le _ _) t.isLt)).2.2.1) (k0_pay3 (k0_pay8 (blk1 m c t) (blk0 m c t) (blk3 m c t) (blk4 m c t) (blk5 m c t)) (outsAt0 m c (t.val - 1) (Nat.lt_of_le_of_lt (Nat.sub_le _ _) t.isLt)).2.2.2) := by
  rw [outsAt0_C m c t h0 h1]
  dsimp only
  exact Pieces.out_C_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)

/-! ## The three row functions over the batch, and what a point adds -/

/-- Batch row `b`'s variance, weighted sum and maximum of utilisations. -/
def fV (c : Dev nD) (b : Fin 16384) : EReal := rowVar (utilOf (PR m c) (DM m c) (OH m c) (CAP m c) b)
def fC (c : Dev nD) (b : Fin 16384) : EReal :=
  rowCong (utilOf (PR m c) (DM m c) (OH m c) (CAP m c) b) (fun l => CLU m c (ix2 b l))
def fM (c : Dev nD) (b : Fin 16384) : EReal := rowMax (utilOf (PR m c) (DM m c) (OH m c) (CAP m c) b)

/-- The block's summed row variances are the batch rows' of this stretch. -/
theorem tile_var (c : Dev nD) (t : Fin cfg0.N) :
    (∑ r : Fin 1024, (k0_pay9 (blk1 m c t) (blk0 m c t) (blk3 m c t) (blk4 m c t) (blk5 m c t)) (ix2 r 0)) = ∑ r : Fin 1024, fV m c (rowOf t r) := by
  refine Finset.sum_congr rfl fun r _ => ?_
  rw [pay9_apply]
  show rowVar (U m c t r) = _
  rw [U_eq]; rfl

theorem tile_cong (c : Dev nD) (t : Fin cfg0.N) :
    (∑ r : Fin 1024, (k0_pay10 (blk1 m c t) (blk0 m c t) (blk3 m c t) (blk4 m c t) (blk2 m c t) (blk5 m c t)) (ix1 r)) = ∑ r : Fin 1024, fC m c (rowOf t r) := by
  refine Finset.sum_congr rfl fun r _ => ?_
  rw [pay10_apply]
  show rowCong (U m c t r) _ = _
  rw [U_eq]
  unfold fC
  congr 1
  funext l
  exact blk2_apply m c t r l

theorem tile_max (c : Dev nD) (t : Fin cfg0.N) :
    (∑ r : Fin 1024, rowMax (fun l => (k0_pay8 (blk1 m c t) (blk0 m c t) (blk3 m c t) (blk4 m c t) (blk5 m c t)) (ix2 r l))) = ∑ r : Fin 1024, fM m c (rowOf t r) := by
  refine Finset.sum_congr rfl fun r _ => ?_
  have e : (fun l => (k0_pay8 (blk1 m c t) (blk0 m c t) (blk3 m c t) (blk4 m c t) (blk5 m c t)) (ix2 r l)) = U m c t r := funext fun l => pay8_apply _ _ _ _ _ r l
  rw [e, U_eq]; rfl

/-! ## After point `n` each accumulator holds its sum over the first `1024 (n + 1)` rows -/

theorem acc_eq (c : Dev nD) : ∀ (n : ℕ) (hn : n < cfg0.N) (y : S1x1.Idx),
    (outsAt0 m c n hn).2.1 y = ∑ k ∈ Finset.range (1024 * (n + 1)), ext (fV m c) k
    ∧ (outsAt0 m c n hn).2.2.1 y = ∑ k ∈ Finset.range (1024 * (n + 1)), ext (fC m c) k
    ∧ (outsAt0 m c n hn).2.2.2 y = ∑ k ∈ Finset.range (1024 * (n + 1)), ext (fM m c) k
  | 0, hn, y => by
    have hN : cfg0.N = 16 := N_0
    have z : ∀ f : Fin 16384 → EReal, (∑ k ∈ Finset.range (1024 * 0), ext f k) = 0 := fun f => by
      rw [Nat.mul_zero, Finset.range_zero, Finset.sum_empty]
    refine ⟨?_, ?_, ?_⟩
    · rw [var_A m c ⟨0, hn⟩ rfl (by show ¬(0 : ℕ) % 16 = 15; decide), pay1_apply, pay5_apply, tile_var, sum_stretch (fV m c) 0 (by omega), z]; rfl
    · rw [cong_A m c ⟨0, hn⟩ rfl (by show ¬(0 : ℕ) % 16 = 15; decide), pay2_apply, pay6_apply, tile_cong, sum_stretch (fC m c) 0 (by omega), z]; rfl
    · rw [max_A m c ⟨0, hn⟩ rfl (by show ¬(0 : ℕ) % 16 = 15; decide), pay3_apply, pay7_apply, tile_max, sum_stretch (fM m c) 0 (by omega), z]; rfl
  | n + 1, hn, y => by
    have hN : cfg0.N = 16 := N_0
    have ih := acc_eq c n (Nat.lt_of_succ_lt hn) y
    have h0 : ¬(⟨n + 1, hn⟩ : Fin cfg0.N).val % 16 = 0 := by dsimp only; omega
    by_cases h1 : (⟨n + 1, hn⟩ : Fin cfg0.N).val % 16 = 15
    · refine ⟨?_, ?_, ?_⟩
      · rw [var_C m c ⟨n + 1, hn⟩ h0 h1, pay1_apply, tile_var, sum_stretch (fV m c) (n + 1) (by omega)]
        exact congrArg (· + _) ih.1
      · rw [cong_C m c ⟨n + 1, hn⟩ h0 h1, pay2_apply, tile_cong, sum_stretch (fC m c) (n + 1) (by omega)]
        exact congrArg (· + _) ih.2.1
      · rw [max_C m c ⟨n + 1, hn⟩ h0 h1, pay3_apply, tile_max, sum_stretch (fM m c) (n + 1) (by omega)]
        exact congrArg (· + _) ih.2.2
    · refine ⟨?_, ?_, ?_⟩
      · rw [var_B m c ⟨n + 1, hn⟩ h0 h1, pay1_apply, tile_var, sum_stretch (fV m c) (n + 1) (by omega)]
        exact congrArg (· + _) ih.1
      · rw [cong_B m c ⟨n + 1, hn⟩ h0 h1, pay2_apply, tile_cong, sum_stretch (fC m c) (n + 1) (by omega)]
        exact congrArg (· + _) ih.2.1
      · rw [max_B m c ⟨n + 1, hn⟩ h0 h1, pay3_apply, tile_max, sum_stretch (fM m c) (n + 1) (by omega)]
        exact congrArg (· + _) ih.2.2

/-! ## The number the program returns -/

/-- The specification's loss of the launch contents. -/
def LOSS (c : Dev nD) : EReal := total (PR m c) (DM m c) (CLU m c) (CAP m c) (OH m c)

/-- At the last point the output block holds the loss at every index: the accumulators are the three batch sums. -/
theorem out_last (c : Dev nD) (t : Fin cfg0.N) (h1 : t.val % 16 = 15) (y : S1x1.Idx) :
    (outsAt0 m c t.val t.isLt).1 y = LOSS m c := by
  have hN : cfg0.N = 16 := N_0
  have h0 : ¬t.val % 16 = 0 := by omega
  obtain ⟨a1, a2, a3⟩ := acc_eq m c t.val t.isLt y
  have e : 1024 * (t.val + 1) = 16384 := by have := t.isLt; omega
  rw [e, ← sum_rows_eq_range] at a1 a2 a3
  have hl : (outsAt0 m c t.val t.isLt).1 y
      = loss ((outsAt0 m c t.val t.isLt).2.1 y) ((outsAt0 m c t.val t.isLt).2.2.1 y) ((outsAt0 m c t.val t.isLt).2.2.2 y) := by
    rw [out_C m c t h0 h1, var_C m c t h0 h1, cong_C m c t h0 h1, max_C m c t h0 h1]
    exact pay4_apply _ _ _ y
  rw [hl, a1, a2, a3]
  rfl

/-- The last point of the grid. -/
def tLast : Fin cfg0.N := ⟨15, by rw [show cfg0.N = 16 from N_0]; decide⟩

/-- The one write-back writes the loss: it happens at the last point only, and the block there is the loss throughout. -/
theorem flushed_eq (c : Dev nD) (t : Fin cfg0.N) (hf : (cfg0.win 6).flush t = true) :
    (dats m 0 c).flushed 6 t = ((cfg0.win 6).blk t).view.read (Elt Ideal) (fun _ => LOSS m c) := by
  have h1 : t.val % 16 = 15 := (flush0_6 t).mp hf
  funext y
  rw [View.read_apply]
  show (dats m 0 c).after 6 t ((cfg0.win 6).xinj (grid0.coords t) y) = LOSS m c
  exact (congrFun (after0_6 m c t) _).trans (out_last m c t h1 _)

/-- So the 1 × 1 result array of the region ends at the loss. -/
theorem final (c : Dev nD) : (dats m 0 c).arrAt 6 cfg0.N = fun _ => LOSS m c :=
  (dats m 0 c).arrAt_eq_of_cover 6 (fun _ => LOSS m c) (flushed_eq m c) fun i =>
    ⟨tLast, (flush0_6 tLast).mpr rfl, by
      show i ∈ ((View.whole main_v11).slice (win0_6.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_6.index tLast 0 * win0_6.size 0 ≤ (i 0 : Nat) ∧ (i 0 : Nat) < win0_6.index tLast 0 * win0_6.size 0 + win0_6.xsize (grid0.coords tLast) 0
        rw [show win0_6.index tLast 0 * win0_6.size 0 = 0 from by decide +kernel, show win0_6.xsize (grid0.coords tLast) 0 = 1 from by decide +kernel]; omega
      | ⟨1, _⟩ =>
        show win0_6.index tLast 1 * win0_6.size 1 ≤ (i 1 : Nat) ∧ (i 1 : Nat) < win0_6.index tLast 1 * win0_6.size 1 + win0_6.xsize (grid0.coords tLast) 1
        rw [show win0_6.index tLast 1 * win0_6.size 1 = 0 from by decide +kernel, show win0_6.xsize (grid0.coords tLast) 1 = 1 from by decide +kernel]; omega⟩

/-- The host's reshape after the region hands the one entry on as the scalar result. -/
theorem tail_eq (c : Dev nD) :
    Pipeline.afterTail₀ cfgs (dats m) 0 (V0 m) [hostOps1] c main_v12 = fun _ => LOSS m c := by
  unfold Pipeline.afterTail₀
  show StableHlo.after hostOps1 _ (Proc.devRef .tc main_v12) = _
  after_results
  rw [Pipeline.withArrays_arr spec0 launch0.win.arr_inj c _ _ 6, final]
  rfl

/-- The run, read: the scalar result at the specification's loss of the arguments, the arguments unchanged. -/
theorem run : θ_run defs (onTc (τ := τ) (main (F := Ideal))) ⟨m, fun _ => 0, ρ⟩ fun r => ∀ c : Dev nD,
      r.2.mem ((c.tc : Thread nD τ).loc main_v12)
          = (fun _ => total (m ((c.tc : Thread nD τ).loc main_arg0)) (m ((c.tc : Thread nD τ).loc main_arg1))
              (m ((c.tc : Thread nD τ).loc main_arg2)) (m ((c.tc : Thread nD τ).loc main_arg3))
              (oneHot (m ((c.tc : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v12 (Pipeline.mem_restRefs_of main_v12 (by decide) (by decide))).trans (tail_eq m c),
      ((h c).1 0).trans ((((dats m) 0 c).arrAt_in 0 rfl _).trans ((A_eq m c 0).trans (V_main_arg0 m c))),
      ((h c).1 1).trans ((((dats m) 0 c).arrAt_in 1 rfl _).trans ((A_eq m c 1).trans (V_main_arg1 m c))),
      ((h c).1 2).trans ((((dats m) 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Accumulate

end
-- ==== Proof.RefRun.lean ====
/-
  The reference program's run, for any float values.

  The reference is a straight line of tensor operations: @main's own thirty-six, and at its two calls the bodies of
  the functions it calls, substituted (a call means its callee's body on the operands): the six of the table
  "tunnel t runs over link l" (a column of link numbers against the row 0 … 15, compared, the bit as a float), and the
  nineteen of the unbiased variance along a row (sum, mean, deviations, their squares summed, over the count less one,
  which is computed from the integer one) with the three of the selection nested in it (the quotient where the divisor is
  positive, else the not-a-number word). Sixty-four operations in all, listed here in program order over the buffers
  the program names for them.

  Such a line terminates from any memory with zero counters, and every buffer ends at the fold of the operations over
  the launch contents: each operation rewrites the one buffer it writes with its function of the buffers it reads and
  leaves every other buffer as it was.
-/
import proofs.«151836_j5549097747152_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The sixty-four operations in program order: the repeat of the demands (each demand four times along a new last
    axis, then read as 1020 tunnels) and the traffic; the tunnel-to-link table; the contraction over the tunnels; the
    capacities plus the offset, broadcast over the rows, and the utilisation; the integer one; the variance of each
    row; then the three batch sums, each over 16384, and their weighted sum. -/
abbrev ops : List (HloOp τ sig (Elt F)) :=
  [ unary main_arg1 main_v0 (broadcastInDim S16384x255x4 ![0, 1] bcast_S16384x255_S16384x255x4_0_1 : (⟨S16384x255, .f32⟩ : BufTy).Contents (Elt F) → (⟨S16384x255x4, .f32⟩ : BufTy).Contents (Elt F)),
    reshape main_v0 main_v1 rfl shapeCasts_S16384x255x4_S16384x1020,
    binary main_arg0 main_v1 main_v2 (mulf : (⟨S16384x1020, .f32⟩ : BufTy).Contents (Elt F) → (⟨S16384x1020, .f32⟩ : BufTy).Contents (Elt F) → (⟨S16384x1020, .f32⟩ : BufTy).Contents (Elt F)),
    -- the table: link numbers down a column, 0 … 15 along a row, equal or not, the bit as a float
    TRef.unary (.of main_arg4 : TRef sig ⟨S1020, .i32⟩) main_call0.v0 (broadcastInDim S1020x1 ![0] bcast_S1020_S1020x1_0),
    TRef.nullary main_call0.v1 (iotaInDim S1x16 32 1),
    TRef.unary main_call0.v0 main_call0.v2 (broadcastInDim S1020x16 ![0, 1] bcast_S1020x1_S1020x16_0_1),
    TRef.unary main_call0.v1 main_call0.v3 (broadcastInDim S1020x16 ![0, 1] bcast_S1x16_S1020x16_0_1),
    TRef.binary main_call0.v2 main_call0.v3 main_call0.v4 (cmpi .eq),
    TRef.unary main_call0.v4 main_call0.v5 (uitofp .f32),
    -- traffic per link, capacities plus offset, utilisation
    binary main_v2 main_v3 main_v4 ((fun l r => Host.dotGeneral dot_S16384x1020_S1020x16_S16384x16_1_0_0_1_n_n none l r) : (⟨S16384x1020, .f32⟩ : BufTy).Contents (Elt F) → (⟨S1020x16, .f32⟩ : BufTy).Contents (Elt F) → (⟨S16384x16, .f32⟩ : BufTy).Contents (Elt F)),
    unary main_arg3 main_v5 (broadcastInDim S1x16 ![1] bcast_S16_S1x16_1 : (⟨S16, .f32⟩ : BufTy).Contents (Elt F) → (⟨S1x16, .f32⟩ : BufTy).Contents (Elt F)),
    nullary main_cst (constant S_ .f32 0x322BCC77#32),
    unary main_cst main_v6 (broadcastInDim S1x16 ![] bcast_S_S1x16 : (⟨S_, .f32⟩ : BufTy).Contents (Elt F) → (⟨S1x16, .f32⟩ : BufTy).Contents (Elt F)),
    binary main_v5 main_v6 main_v7 (addf : (⟨S1x16, .f32⟩ : BufTy).Contents (Elt F) → (⟨S1x16, .f32⟩ : BufTy).Contents (Elt F) → (⟨S1x16, .f32⟩ : BufTy).Contents (Elt F)),
    unary main_v7 main_v8 (broadcastInDim S16384x16 ![0, 1] bcast_S1x16_S16384x16_0_1 : (⟨S1x16, .f32⟩ : BufTy).Contents (Elt F) → (⟨S16384x16, .f32⟩ : BufTy).Contents (Elt F)),
    binary main_v4 main_v8 main_v9 (Host.divf : (⟨S16384x16, .f32⟩ : BufTy).Contents (Elt F) → (⟨S16384x16, .f32⟩ : BufTy).Contents (Elt F) → (⟨S16384x16, .f32⟩ : BufTy).Contents (Elt F)),
    nullary main_c (constantI S_ 32 1#32),
    -- the variance of each row: sum, mean, deviations, squares, their sum over (16 minus the float of the integer one)
    TRef.nullary main_call1.cst (constant S_ .f32 0x00000000#32),
    TRef.binary (.of main_v9 : TRef sig ⟨S16384x16, .f32⟩) main_call1.cst main_call1.v0 (fun x v => Host.reduceAdd x v reducesTo_S16384x16_S16384_d1 h_S_),
    TRef.unary main_call1.v0 main_call1.v1 (broadcastInDim S16384x1 ![0] bcast_S16384_S16384x1_0),
    TRef.nullary main_call1.cst_0 (constant S_ .f32 0x41800000#32),
    TRef.unary main_call1.cst_0 main_call1.v2 (broadcastInDim S16384x1 ![] bcast_S_S16384x1),
    TRef.binary main_call1.v1 main_call1.v2 main_call1.v3 Host.divf,
    TRef.unary main_call1.v3 main_call1.v4 (broadcastInDim S16384x16 ![0, 1] bcast_S16384x1_S16384x16_0_1),
    TRef.binary (.of main_v9 : TRef sig ⟨S16384x16, .f32⟩) main_call1.v4 main_call1.v5 subf,
    TRef.binary main_call1.v5 main_call1.v5 main_call1.v6 mulf,
    TRef.unary (.of main_c : TRef sig ⟨S_, .i32⟩) main_call1.v7 (sitofp .f32),
    TRef.nullary main_call1.cst_1 (constant S_ .f32 0x41800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S16384x16_S16384_d1 h_S_),
    TRef.unary main_call1.v8 main_call1.v10 (broadcastInDim S16384 ![] bcast_S_S16384),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    -- the selection: the quotient where the divisor is positive, else the not-a-number word
    TRef.unary main_call1.cst_4 main_call1.call0.v0 id,
    TRef.unary main_call1.call0.v0 main_call1.call0.v1 (broadcastInDim S16384 ![] bcast_S_S16384),
    TRef.ternary main_call1.v12 main_call1.v11 main_call1.call0.v1 main_call1.call0.v2 (fun p a b => select (broadcastInDim S16384 ![] bcast_S_S16384 p) a b),
    -- the three batch sums over 16384 and their weighted sum
    nullary main_cst_0 (constant S_ .f32 0x00000000#32),
    binary main_v10 main_cst_0 main_v11 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_1 (constant S_ .f32 0x46800000#32),
    binary main_v11 main_cst_1 main_v12 (Host.divf : (⟨S_, .f32⟩ : BufTy).Contents (Elt F) → (⟨S_, .f32⟩ : BufTy).Contents (Elt F) → (⟨S_, .f32⟩ : BufTy).Contents (Elt F)),
    binary main_v9 main_arg2 main_v13 (mulf : (⟨S16384x16, .f32⟩ : BufTy).Contents (Elt F) → (⟨S16384x16, .f32⟩ : BufTy).Contents (Elt F) → (⟨S16384x16, .f32⟩ : BufTy).Contents (Elt F)),
    nullary main_cst_2 (constant S_ .f32 0x00000000#32),
    binary main_v13 main_cst_2 main_v14 ((fun x v => Host.reduceAdd x v reducesTo_S16384x16_S16384_d1 h_S_) : (⟨S16384x16, .f32⟩ : BufTy).Contents (Elt F) → (⟨S_, .f32⟩ : BufTy).Contents (Elt F) → (⟨S16384, .f32⟩ : BufTy).Contents (Elt F)),
    nullary main_cst_3 (constant S_ .f32 0x00000000#32),
    binary main_v14 main_cst_3 main_v15 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_4 (constant S_ .f32 0x46800000#32),
    binary main_v15 main_cst_4 main_v16 (Host.divf : (⟨S_, .f32⟩ : BufTy).Contents (Elt F) → (⟨S_, .f32⟩ : BufTy).Contents (Elt F) → (⟨S_, .f32⟩ : BufTy).Contents (Elt F)),
    nullary main_cst_5 (constant S_ .f32 0xFF800000#32),
    binary main_v9 main_cst_5 main_v17 ((fun x v => Host.reduce FloatOps.maximumf x v reducesTo_S16384x16_S16384_d1 h_S_) : (⟨S16384x16, .f32⟩ : BufTy).Contents (Elt F) → (⟨S_, .f32⟩ : BufTy).Contents (Elt F) → (⟨S16384, .f32⟩ : BufTy).Contents (Elt F)),
    nullary main_cst_6 (constant S_ .f32 0x00000000#32),
    binary main_v17 main_cst_6 main_v18 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_7 (constant S_ .f32 0x46800000#32),
    binary main_v18 main_cst_7 main_v19 (Host.divf : (⟨S_, .f32⟩ : BufTy).Contents (Elt F) → (⟨S_, .f32⟩ : BufTy).Contents (Elt F) → (⟨S_, .f32⟩ : BufTy).Contents (Elt F)),
    nullary main_cst_8 (constant S_ .f32 0x3E99999A#32),
    binary main_cst_8 main_v12 main_v20 (mulf : (⟨S_, .f32⟩ : BufTy).Contents (Elt F) → (⟨S_, .f32⟩ : BufTy).Contents (Elt F) → (⟨S_, .f32⟩ : BufTy).Contents (Elt F)),
    nullary main_cst_9 (constant S_ .f32 0x3F000000#32),
    binary main_cst_9 main_v16 main_v21 (mulf : (⟨S_, .f32⟩ : BufTy).Contents (Elt F) → (⟨S_, .f32⟩ : BufTy).Contents (Elt F) → (⟨S_, .f32⟩ : BufTy).Contents (Elt F)),
    binary main_v20 main_v21 main_v22 (addf : (⟨S_, .f32⟩ : BufTy).Contents (Elt F) → (⟨S_, .f32⟩ : BufTy).Contents (Elt F) → (⟨S_, .f32⟩ : BufTy).Contents (Elt F)),
    nullary main_cst_10 (constant S_ .f32 0x3E4CCCCD#32),
    binary main_cst_10 main_v19 main_v23 (mulf : (⟨S_, .f32⟩ : BufTy).Contents (Elt F) → (⟨S_, .f32⟩ : BufTy).Contents (Elt F) → (⟨S_, .f32⟩ : BufTy).Contents (Elt F)),
    binary main_v22 main_v23 main_v24 (addf : (⟨S_, .f32⟩ : BufTy).Contents (Elt F) → (⟨S_, .f32⟩ : BufTy).Contents (Elt F) → (⟨S_, .f32⟩ : BufTy).Contents (Elt F)) ]

-- a chain of sixty-four sequencing steps, nested one level per step
set_option maxRecDepth 2048 in
/-- @main is that straight line: with the three functions' bodies substituted at their calls and the calls' buffer
    records read at their fields, both sides are one chain of steps once sequencing is re-associated (a sequence of a
    sequence is the longer sequence, and a step after "return" is the step). -/
theorem main_eq (c : Dev nD) : main (F := F) c = seq ops := by
  simp only [main, fn_one_hot.body, fn_var.body, fn_where.body, seq, bind_assoc, pure_bind]

/-- The program scopes no buffer. -/
theorem scopedRefs_eq : (Finset.univ.filter fun b : Ref sig .tc => b.isScoped) = ∅ := by decide
/-- The program has no semaphore, so scopes none. -/
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨unary_bufs_sub .., reshape_bufs_sub .., binary_bufs_sub ..,
    unary_bufs_sub .., nullary_bufs_sub .., unary_bufs_sub .., unary_bufs_sub .., binary_bufs_sub .., unary_bufs_sub ..,
    binary_bufs_sub .., unary_bufs_sub .., nullary_bufs_sub .., unary_bufs_sub .., binary_bufs_sub .., unary_bufs_sub ..,
    binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub ..,
    unary_bufs_sub .., unary_bufs_sub .., ternary_bufs_sub ..,
    nullary_bufs_sub .., binary_bufs_sub .., nullary_bufs_sub .., binary_bufs_sub .., binary_bufs_sub ..,
    nullary_bufs_sub .., binary_bufs_sub .., nullary_bufs_sub .., binary_bufs_sub .., nullary_bufs_sub .., binary_bufs_sub ..,
    nullary_bufs_sub .., binary_bufs_sub .., nullary_bufs_sub .., binary_bufs_sub .., nullary_bufs_sub .., binary_bufs_sub ..,
    nullary_bufs_sub .., binary_bufs_sub .., nullary_bufs_sub .., binary_bufs_sub .., binary_bufs_sub ..,
    nullary_bufs_sub .., binary_bufs_sub .., binary_bufs_sub ..⟩

/-- On the compiled mesh, for any float values, from any memory with zero counters: every weakly fair execution of
    @main terminates, and every final state has each buffer at the fold of the sixty-four operations over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  The reference program's result is the loss of the specification.

  The run leaves the result buffer at one term of the five argument arrays. Read at the ideal values, stage by stage
  and entry by entry, that term is the specification's loss:

  * the demands repeated four times along a new last axis and read as 1020 tunnels: tunnel t of row b carries the
    demand of destination t / 4 (the row-major position of (b, d, r) among [16384, 255, 4] is that of (b, 4 d + r)
    among [16384, 1020]);
  * the contraction over the tunnels of traffic times table entry, divided entry by entry by capacity plus offset
    (the capacities and the offset first laid along a row, then repeated down the rows): row b's utilisation of
    link l;
  * the variance of a row: its sum over 16, the mean, the squared deviations summed, over 16 less the float of the
    integer one, which is 15, a positive number, so that the selection takes the quotient and never the
    not-a-number word;
  * a sum along one axis from the zero word is the sum; the maximum along a row from minus infinity's word is the
    fold of max;
  * each of the three batch sums over 16384 rows is divided by 16384's word and the three are mixed.
-/
import proofs.«151836_j5549097747152_1_alg».proof.Proof.RefRun
import proofs.«151836_j5549097747152_1_alg».proof.Proof.LinkLoss
import proofs.«151836_j5549097747152_1_alg».proof.Proof.LibRowDims
import Idealize.ShloMosaic.PureOps.Ideal.Laws
import Idealize.ShloMosaic.Lib.ValueIdx
import Idealize.ShloMosaic.Lib.ValueIdxRank1
import Idealize.ShloMosaic.Lib.ValueLayout
import Idealize.ShloMosaic.Lib.IdealHost
import Idealize.ShloMosaic.Lib.Pipeline.Value
import Idealize.ShloMosaic.Lib.StableHlo.Run

noncomputable section

open scoped BigOperators

namespace Cert.ReferenceIdeal.RefValue

open Idealize.ShloMosaic Idealize.ShloMosaic.TcCoe Idealize.SL.Sem Cert.ReferenceIdeal
open Cert.ReferenceIdeal.Gen Cert.ReferenceIdeal.RefRun Idealize.ShloMosaic.StableHlo Idealize.ShloMosaic.ValueIdx

/-! ## The result as a term of the arguments, for any float values -/

section Term

variable {F : FTy → Type} [FloatOps F]

/-- The demands repeated: each four times along a new last axis, then read as 1020 tunnels per row. -/
def rep (dm : FVec F S16384x255 .f32) : FVec F S16384x1020 .f32 :=
  shapeCast S16384x1020 (broadcastInDim S16384x255x4 ![0, 1] bcast_S16384x255_S16384x255x4_0_1 dm)
    shapeCasts_S16384x255x4_S16384x1020

/-- The tunnel-to-link table: the link numbers down a column against 0 … 15 along a row, equal or not, as a float. -/
def table (idx : IVec S1020 32) : FVec F S1020x16 .f32 :=
  uitofp .f32 (cmpi .eq
    (broadcastInDim S1020x16 ![0, 1] bcast_S1020x1_S1020x16_0_1 (broadcastInDim S1020x1 ![0] bcast_S1020_S1020x1_0 idx))
    (broadcastInDim S1020x16 ![0, 1] bcast_S1x16_S1020x16_0_1 (iotaInDim S1x16 32 1)))

/-- Capacity plus offset, laid along a row and repeated down the 16384 rows. -/
def denom (cap : FVec F S16 .f32) : FVec F S16384x16 .f32 :=
  broadcastInDim S16384x16 ![0, 1] bcast_S1x16_S16384x16_0_1
    (addf (broadcastInDim S1x16 ![1] bcast_S16_S1x16_1 cap)
      (broadcastInDim S1x16 ![] bcast_S_S1x16 (constant S_ .f32 0x322BCC77#32)))

/-- The utilisations: traffic contracted with the table over the tunnels, over capacity plus offset. -/
def util (pr : FVec F S16384x1020 .f32) (dm : FVec F S16384x255 .f32) (cap : FVec F S16 .f32) (idx : IVec S1020 32) :
    FVec F S16384x16 .f32 :=
  Host.divf (Host.dotGeneral dot_S16384x1020_S1020x16_S16384x16_1_0_0_1_n_n none (mulf pr (rep dm)) (table idx)) (denom cap)

/-- A row's sum along its 16 entries from the zero word. -/
def rowSum (u : FVec F S16384x16 .f32) : FVec F S16384 .f32 :=
  Host.reduceAdd u (constant S_ .f32 0x00000000#32) reducesTo_S16384x16_S16384_d1 h_S_

/-- The rows' means, repeated along the rows: the row sum as a column, over sixteen, laid back over 16 columns. -/
def meanB (u : FVec F S16384x16 .f32) : FVec F S16384x16 .f32 :=
  broadcastInDim S16384x16 ![0, 1] bcast_S16384x1_S16384x16_0_1
    (Host.divf (broadcastInDim S16384x1 ![0] bcast_S16384_S16384x1_0 (rowSum u))
      (broadcastInDim S16384x1 ![] bcast_S_S16384x1 (constant S_ .f32 0x41800000#32)))

/-- Sixteen less the float of the integer one. -/
def dof : FVec F S_ .f32 :=
  subf (constant S_ .f32 0x41800000#32) (sitofp .f32 (constantI S_ 32 1#32))

/-- The rows' variances: squared deviations summed, over that divisor where it is positive, else the not-a-number
    word. -/
def var (u : FVec F S16384x16 .f32) : FVec F S16384 .f32 :=
  select (broadcastInDim S16384 ![] bcast_S_S16384 (cmpf .ogt (dof (F := F)) (constant S_ .f32 0x00000000#32)))
    (Host.divf (rowSum (mulf (subf u (meanB u)) (subf u (meanB u)))) (broadcastInDim S16384 ![] bcast_S_S16384 dof))
    (broadcastInDim S16384 ![] bcast_S_S16384 (constant S_ .f32 0x7FC00000#32))

/-- The rows' maxima: the fold of the maximum along a row from minus infinity's word. -/
def rowMaxV (u : FVec F S16384x16 .f32) : FVec F S16384 .f32 :=
  Host.reduce FloatOps.maximumf u (constant S_ .f32 0xFF800000#32) reducesTo_S16384x16_S16384_d1 h_S_

/-- The sum of a per-row quantity over the batch, from the zero word, over 16384's word. -/
def batchMean (v : FVec F S16384 .f32) : FVec F S_ .f32 :=
  Host.divf (Host.reduceAdd v (constant S_ .f32 0x00000000#32) reducesTo_S16384_S_d0 h_S_) (constant S_ .f32 0x46800000#32)

/-- What the reference computes of its five arguments. -/
def refTerm (pr : FVec F S16384x1020 .f32) (dm : FVec F S16384x255 .f32) (clu : FVec F S16384x16 .f32) (cap : FVec F S16 .f32)
    (idx : IVec S1020 32) : FVec F S_ .f32 :=
  addf
    (addf (mulf (constant S_ .f32 0x3E99999A#32) (batchMean (var (util pr dm cap idx))))
      (mulf (constant S_ .f32 0x3F000000#32) (batchMean (rowSum (mulf (util pr dm cap idx) clu)))))
    (mulf (constant S_ .f32 0x3E4CCCCD#32) (batchMean (rowMaxV (util pr dm cap idx))))

-- the reductions and the contraction stay folded while the fold of the sixty-four operations is unrolled: the
-- equation never looks inside them
attribute [local irreducible] Host.reduce Host.reduceAdd FloatOps.dotGeneral in
set_option maxRecDepth 8192 in
set_option maxHeartbeats 400000 in
/-- The fold at the result buffer is that term of the arguments' contents, by computation: the fold unrolled, each
    operation deciding whether the buffer read is the one it writes, the typed references' casts the identity at
    these literal references. -/
theorem out_eq (V : Valuation τ sig (Elt F)) :
    after ops V (main_v24 : DevRef τ sig)
      = refTerm (V (main_arg0 : DevRef τ sig)) (V (main_arg1 : DevRef τ sig)) (V (main_arg2 : DevRef τ sig))
          (V (main_arg3 : DevRef τ sig)) (V (main_arg4 : DevRef τ sig)) := by
  simp only [after_cons, after_nil]
  rfl

/-- No operation writes an argument's buffer. -/
theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl
theorem arg3_eq (V : Valuation τ sig (Elt F)) : after ops V (main_arg3 : DevRef τ sig) = V (main_arg3 : DevRef τ sig) := by
  simp only [after_cons, after_nil]
  rfl
theorem arg4_eq (V : Valuation τ sig (Elt F)) : after ops V (main_arg4 : DevRef τ sig) = V (main_arg4 : DevRef τ sig) := by
  simp only [after_cons, after_nil]
  rfl

end Term

/-! ## Read at the ideal values, entry by entry -/

section AtIdeal

open Cert.LinkLoss

/-- Tunnel t of row b carries the demand of destination t / 4: among [16384, 255, 4] the position of (b, t / 4, t % 4)
    is that of (b, t) among [16384, 1020], and the repeat along the last axis forgets the last coordinate. -/
theorem rep_apply (dm : FVec Ideal S16384x255 .f32) (b : Fin 16384) (t : Fin 1020) :
    rep dm (ix2 b t) = dm (ix2 b (dst t)) := by
  unfold rep
  refine (shapeCast_apply _ shapeCasts_S16384x255x4_S16384x1020 (ix2 b t)
    (ix3 b (dst t) (⟨t.val % 4, Nat.mod_lt _ (by decide)⟩ : Fin 4)) ?_).trans ?_
  · rw [Shape.rowMajor_val_three, Shape.rowMajor_val_two]
    show (b.val * 255 + t.val / 4) * 4 + t.val % 4 = b.val * 1020 + t.val
    omega
  · refine broadcastInDim_apply _ _ dm _ (ix2 b (dst t)) fun a => ?_
    match a with
    | ⟨0, _⟩ => rfl
    | ⟨1, _⟩ => rfl

/-- The table is the specification's, the same operations under other names of the shapes. -/
theorem table_eq (idx : IVec S1020 32) : table (F := Ideal) idx = oneHot idx := rfl

/-- Capacity plus offset at (b, l). -/
theorem denom_apply (cap : FVec Ideal S16 .f32) (b : Fin 16384) (l : Fin 16) :
    denom cap (ix2 b l) = cap (ix1 l) + eps := by
  unfold denom
  refine (broadcastInDim_apply _ _ _ (ix2 b l) (ix2 (0 : Fin 1) l) fun a => ?_).trans ?_
  · match a with
    | ⟨0, _⟩ => rfl
    | ⟨1, _⟩ => rfl
  · rw [addf_apply]
    congr 1
    exact broadcastInDim_apply _ _ cap _ (ix1 l) fun a => by
      match a with
      | ⟨0, _⟩ => rfl

/-- The contraction at (b, l) is the sum over the 1020 tunnels. -/
theorem dot_apply (x : FVec Ideal S16384x1020 .f32) (y : FVec Ideal S1020x16 .f32) (b : Fin 16384) (l : Fin 16) :
    Host.dotGeneral dot_S16384x1020_S1020x16_S16384x16_1_0_0_1_n_n none x y (ix2 b l)
      = ∑ t : Fin 1020, x (ix2 b t) * y (ix2 t l) := by
  show FloatOps.dotGeneral (DotDims.plain 16384 1020 16) none .single x y (ix2 b l) = _
  exact RowDims.dotGeneral_plain_apply none .single x y b l

/-- Row b's utilisation of link l, as the specification writes it. -/
theorem util_apply (pr : FVec Ideal S16384x1020 .f32) (dm : FVec Ideal S16384x255 .f32) (cap : FVec Ideal S16 .f32)
    (idx : IVec S1020 32) (b : Fin 16384) (l : Fin 16) :
    util pr dm cap idx (ix2 b l) = utilOf pr dm (oneHot idx) cap b l := by
  unfold util
  rw [hostDivf_apply, dot_apply, denom_apply, table_eq]
  unfold utilOf rowUtil
  congr 1
  refine Finset.sum_congr rfl fun t _ => ?_
  rw [mulf_apply, rep_apply]

/-- A row's sum from the zero word is the sum of its 16 entries. -/
theorem rowSum_apply (u : FVec Ideal S16384x16 .f32) (b : Fin 16384) :
    rowSum u (ix1 b) = ∑ l : Fin 16, u (ix2 b l) := by
  unfold rowSum
  rw [hostReduceAdd_apply,
    Ideal.hostReduceAdd_single reducesTo_S16384x16_S16384_d1 (by decide : S16384x16.Reduces [1] S16384)]
  show Ideal.ofBits .f32 0x00000000#32 + _ = _
  rw [Ideal.ofBits_zero_f32, zero_add]
  refine Finset.sum_congr rfl fun k _ => congrArg u (funext fun a => ?_)
  match a with
  | ⟨0, _⟩ => rfl
  | ⟨1, _⟩ => rfl

/-- The mean laid over the columns, at (b, l): the row's sum over sixteen. -/
theorem meanB_apply (u : FVec Ideal S16384x16 .f32) (b : Fin 16384) (l : Fin 16) :
    meanB u (ix2 b l) = rowMean (fun l => u (ix2 b l)) := by
  unfold meanB rowMean
  refine (broadcastInDim_apply _ _ _ (ix2 b l) (ix2 b (0 : Fin 1)) fun a => ?_).trans ?_
  · match a with
    | ⟨0, _⟩ => rfl
    | ⟨1, _⟩ => rfl
  · rw [hostDivf_apply]
    refine congrArg₂ Ideal.div ?_ (broadcastInDim_scalar_apply _ _ _)
    refine (broadcastInDim_apply _ _ _ (ix2 b (0 : Fin 1)) (ix1 b) fun a => ?_).trans (rowSum_apply u b)
    match a with
    | ⟨0, _⟩ => rfl

/-- Sixteen's word is the real sixteen. -/
theorem ofBits_sixteen : Ideal.ofBits .f32 0x41800000#32 = ((16 : ℝ) : EReal) := by
  simp [Ideal.ofBits, Ideal.ieee, -EReal.coe_mul]; norm_num

/-- Fifteen's word is the real fifteen. -/
theorem ofBits_fifteen : Ideal.ofBits .f32 0x41700000#32 = ((15 : ℝ) : EReal) := by
  simp [Ideal.ofBits, Ideal.ieee, -EReal.coe_mul]; norm_num

/-- The float of the integer one is the real one. -/
theorem sitofp_one : FloatOps.sitofp (F := Ideal) .f32 (1#32 : BitVec 32) = ((1 : ℝ) : EReal) := by
  show ((((1#32 : BitVec 32).toInt : ℝ)) : EReal) = _
  rw [show (1#32 : BitVec 32).toInt = 1 from by decide]
  norm_num

/-- Sixteen less the float of the integer one is fifteen's word: both are the real fifteen. -/
theorem dof_val : dof (F := Ideal) ix0 = Ideal.ofBits .f32 0x41700000#32 := by
  show Ideal.ofBits .f32 0x41800000#32 - FloatOps.sitofp (F := Ideal) .f32 (1#32 : BitVec 32) = _
  rw [ofBits_sixteen, sitofp_one, ofBits_fifteen, ← EReal.coe_sub]
  norm_num

/-- That divisor is above zero, so the comparison's bit is set. -/
theorem dof_pos : cmpf .ogt (dof (F := Ideal)) (constant S_ .f32 0x00000000#32) ix0 = 1#1 := by
  show Ideal.cmp .ogt (dof (F := Ideal) ix0) (Ideal.ofBits .f32 0x00000000#32) = 1#1
  rw [dof_val, ofBits_fifteen, Ideal.ofBits_zero_f32]
  have h : (0 : EReal) < ((15 : ℝ) : EReal) := by exact_mod_cast (by norm_num : (0 : ℝ) < 15)
  simp [Ideal.cmp, h]

/-- A row's variance: the selection takes the quotient, the squared deviations' sum over fifteen's word. -/
theorem var_apply (u : FVec Ideal S16384x16 .f32) (b : Fin 16384) :
    var u (ix1 b) = rowVar (fun l => u (ix2 b l)) := by
  unfold var rowVar
  rw [select_apply,
    show broadcastInDim S16384 ![] bcast_S_S16384 (cmpf .ogt (dof (F := Ideal)) (constant S_ .f32 0x00000000#32)) (ix1 b) = 1#1
      from (broadcastInDim_scalar_apply _ _ _).trans dof_pos,
    select_one, hostDivf_apply]
  refine congrArg₂ Ideal.div ?_ ((broadcastInDim_scalar_apply _ _ _).trans dof_val)
  rw [rowSum_apply]
  refine Finset.sum_congr rfl fun l _ => ?_
  rw [mulf_apply, subf_apply, meanB_apply]

/-- A row's product sum with the current utilisations. -/
theorem cong_apply (u clu : FVec Ideal S16384x16 .f32) (b : Fin 16384) :
    rowSum (mulf u clu) (ix1 b) = rowCong (fun l => u (ix2 b l)) (fun l => clu (ix2 b l)) := by
  rw [rowSum_apply]
  rfl

/-- A row's maximum: the fold of max from minus infinity's word over the 16 entries. -/
theorem rowMaxV_apply (u : FVec Ideal S16384x16 .f32) (b : Fin 16384) :
    rowMaxV u (ix1 b) = rowMax (fun l => u (ix2 b l)) := by
  unfold rowMaxV rowMax
  show Host.reduce (max : EReal → EReal → EReal) u (constant (F := Ideal) S_ .f32 0xFF800000#32)
    reducesTo_S16384x16_S16384_d1 h_S_ (ix1 b) = _
  rw [Host.reduce_eq_fold_single (max : EReal → EReal → EReal) u _ reducesTo_S16384x16_S16384_d1
    (by decide : S16384x16.Reduces [1] S16384) h_S_ (ix1 b)]
  refine congrArg (Finset.fold max _ · Finset.univ) (funext fun k => congrArg u (funext fun a => ?_))
  match a with
  | ⟨0, _⟩ => rfl
  | ⟨1, _⟩ => rfl

/-- A per-row quantity summed over the batch from the zero word, over 16384's word. -/
theorem batchMean_apply (v : FVec Ideal S16384 .f32) :
    batchMean v ix0 = Ideal.div (∑ b : Fin 16384, v (ix1 b)) (Ideal.ofBits .f32 0x46800000#32) := by
  unfold batchMean
  -- a reduction to the scalar shape sums over every index; the indices of a rank-one shape are their coordinates
  rw [hostDivf_apply, hostReduceAdd_apply, Ideal.hostReduceAdd_total reducesTo_S16384_S_d0 (fun b => b.elim0)]
  refine congrArg₂ Ideal.div ?_ rfl
  show Ideal.ofBits .f32 0x00000000#32 + _ = _
  rw [Ideal.ofBits_zero_f32, zero_add]
  exact (Equiv.sum_comp (idxEquiv1 (n := 16384)).symm v).symm

/-- The reference's term of its five arguments is the specification's loss of them. -/
theorem refTerm_eq (pr : FVec Ideal S16384x1020 .f32) (dm : FVec Ideal S16384x255 .f32) (clu : FVec Ideal S16384x16 .f32)
    (cap : FVec Ideal S16 .f32) (idx : IVec S1020 32) :
    refTerm pr dm clu cap idx = fun _ => total pr dm clu cap (oneHot idx) := by
  funext j
  obtain rfl := eq_ix0 j
  -- the utilisations stay one named array, known entry by entry
  have hu : ∀ b l, util pr dm cap idx (ix2 b l) = utilOf pr dm (oneHot idx) cap b l := util_apply pr dm cap idx
  unfold refTerm
  generalize util pr dm cap idx = U at hu ⊢
  have hrow : ∀ b, (fun l => U (ix2 b l)) = utilOf pr dm (oneHot idx) cap b := fun b => funext (hu b)
  have h1 : ∀ b, var U (ix1 b) = rowVar (utilOf pr dm (oneHot idx) cap b) := fun b => by rw [var_apply, hrow]
  have h2 : ∀ b, rowSum (mulf U clu) (ix1 b) = rowCong (utilOf pr dm (oneHot idx) cap b) (fun l => clu (ix2 b l)) :=
    fun b => by rw [cong_apply, hrow]
  have h3 : ∀ b, rowMaxV U (ix1 b) = rowMax (utilOf pr dm (oneHot idx) cap b) := fun b => by rw [rowMaxV_apply, hrow]
  show (Ideal.ofBits .f32 0x3E99999A#32 * batchMean (var U) ix0
        + Ideal.ofBits .f32 0x3F000000#32 * batchMean (rowSum (mulf U clu)) ix0)
      + Ideal.ofBits .f32 0x3E4CCCCD#32 * batchMean (rowMaxV U) ix0 = _
  rw [batchMean_apply, batchMean_apply, batchMean_apply]
  simp only [h1, h2, h3]
  rfl

end AtIdeal

/-! ## The run -/

/-- On every device, from any memory with zero counters: every weakly fair execution of the reference terminates with
    the result buffer at the specification's loss of the five arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24)
          = (fun _ => Cert.LinkLoss.total (m ((c.tc : Thread nD τ).loc main_arg0)) (m ((c.tc : Thread nD τ).loc main_arg1))
              (m ((c.tc : Thread nD τ).loc main_arg2)) (m ((c.tc : Thread nD τ).loc main_arg3))
              (Cert.LinkLoss.oneHot (m ((c.tc : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v24).trans ((out_eq _).trans (refTerm_eq _ _ _ _ _)),
        (h c main_arg0).trans (arg0_eq _), (h c main_arg1).trans (arg1_eq _), (h c main_arg2).trans (arg2_eq _),
        (h c main_arg3).trans (arg3_eq _), (h c main_arg4).trans (arg4_eq _)⟩)
    (run_main m ρ)

end Cert.ReferenceIdeal.RefValue

end
-- ==== Proof.lean ====
/-
  The kernel computes, over a batch of 16384 rows, a loss of link utilisations: per row the unbiased variance of the
  sixteen utilisations, their sum weighted by the current utilisations, and their maximum, each averaged over the batch
  and mixed with weights 0.3, 0.5, 0.2.  It walks the batch in sixteen stretches of 1024 rows, repeats each row's 255
  demands over their four tunnels by a product with a 0/1 ownership matrix built on the host, and carries three running
  sums between the grid points; the reference repeats the demands by a broadcast and sums over the whole batch at once.
  Over the extended reals the product with the ownership matrix is the repeat (every other term is a product with
  zero), sums may be regrouped freely, and every float literal is the same word on both sides, so both end at one term
  (`Cert.LinkLoss.total`) of the same arguments.  No law used needs the inputs to be finite.
-/
import proofs.«151836_j5549097747152_1_alg».proof.Defs
import proofs.«151836_j5549097747152_1_alg».proof.Proof.Gen.Kernel
import proofs.«151836_j5549097747152_1_alg».proof.Proof.Gen.Kernel.Skeleton
import proofs.«151836_j5549097747152_1_alg».proof.Proof.Gen.Kernel.Launch
import proofs.«151836_j5549097747152_1_alg».proof.Proof.Gen.Kernel.Points
import proofs.«151836_j5549097747152_1_alg».proof.Proof.Gen.Kernel.Frame
import proofs.«151836_j5549097747152_1_alg».proof.Proof.Gen.KernelIdeal
import proofs.«151836_j5549097747152_1_alg».proof.Proof.Gen.KernelIdeal.Skeleton
import proofs.«151836_j5549097747152_1_alg».proof.Proof.Gen.KernelIdeal.Launch
import proofs.«151836_j5549097747152_1_alg».proof.Proof.Gen.KernelIdeal.Points
import proofs.«151836_j5549097747152_1_alg».proof.Proof.Gen.KernelIdeal.Frame
import proofs.«151836_j5549097747152_1_alg».proof.Proof.Gen.ReferenceIdeal
import proofs.«151836_j5549097747152_1_alg».proof.Proof.Gen.Pre_finite_inputs
import proofs.«151836_j5549097747152_1_alg».proof.Proof.LinkLoss
import proofs.«151836_j5549097747152_1_alg».proof.Proof.Accumulate
import proofs.«151836_j5549097747152_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel and its idealization run, fault-free, with their arguments unchanged: the frame over the
    sixteen grid points with the three accumulators carried between them. -/
theorem frame_k : Cert.frame_Kernel := fun m ρ _ => Cert.Kernel.Gen.frame m ρ
theorem frame_ki : Cert.frame_KernelIdeal := fun m ρ _ => Cert.KernelIdeal.Gen.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- Both programs end at the specification's loss of the same arguments: the kernel by accumulating the three row
    functions over sixteen stretches of 1024 rows, the reference by summing them over the whole batch. -/
theorem algebraic : Cert.algebraic_KernelIdeal_ReferenceIdeal := by
  intro m ρ m' ρ' _ hagree
  refine ⟨_, Cert.KernelIdeal.Accumulate.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
